-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x24 : Shape := ⟨2, ![64, 24]⟩
abbrev S24 : Shape := ⟨1, ![24]⟩
abbrev S323x256 : Shape := ⟨2, ![323, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x24 : S_.BroadcastsInDim S64x24 (![] : Fin 0 → Fin S64x24.rank)
  reducesTo_S64x24_S_d0_1 : S64x24.ReducesTo [0, 1] S_
  bcast_S_S24 : S_.BroadcastsInDim S24 (![] : Fin 0 → Fin S24.rank)
  reducesTo_S24_S_d0 : S24.ReducesTo [0] S_
  bcast_S_S323x256 : S_.BroadcastsInDim S323x256 (![] : Fin 0 → Fin S323x256.rank)
  reducesTo_S323x256_S_d0_1 : S323x256.ReducesTo [0, 1] S_

variable [Facts]

def fn_part4 {F : FTy → Type} [FloatOps F] (main_arg14 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  main_v73

def fn_part3 {F : FTy → Type} [FloatOps F] (main_arg11 : FVec F S256x256 .f32) (main_arg12 : FVec F S256 .f32) (main_arg13 : FVec F S256x256 .f32) (main_arg14 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_v63 main_v67

def fn_part2 {F : FTy → Type} [FloatOps F] (main_arg7 : FVec F S64x24 .f32) (main_arg8 : FVec F S24 .f32) (main_arg9 : FVec F S323x256 .f32) (main_arg10 : FVec F S256 .f32) (main_arg11 : FVec F S256x256 .f32) (main_arg12 : FVec F S256 .f32) (main_arg13 : FVec F S256x256 .f32) (main_arg14 : FVec F S256 .f32) (main_v33 : IVec S_ 1) : IVec S_ 1 :=
  let main_v34 : FVec F S64x24 .f32 := Host.absf main_arg7
  let main_cst_12 : FVec F S_ .f32 := constant S_ .f32 0x7F800000#32
  let main_v35 : FVec F S64x24 .f32 := broadcastInDim S64x24 ![] bcast_S_S64x24 main_cst_12
  let main_v36 : IVec S64x24 1 := cmpf .olt main_v34 main_v35
  let main_c_13 : IVec S_ 1 := constantI S_ 1 1#1
  let main_v37 : IVec S_ 1 := (fun x v => Host.reduce IntOp.andi x v reducesTo_S64x24_S_d0_1 h_S_) main_v36 main_c_13
  let main_v38 : IVec S_ 1 := andi main_v33 main_v37
  let main_v39 : FVec F S24 .f32 := Host.absf main_arg8
  let main_cst_14 : FVec F S_ .f32 := constant S_ .f32 0x7F800000#32
  let main_v40 : FVec F S24 .f32 := broadcastInDim S24 ![] bcast_S_S24 main_cst_14
  let main_v41 : IVec S24 1 := cmpf .olt main_v39 main_v40
  let main_c_15 : IVec S_ 1 := constantI S_ 1 1#1
  let main_v42 : IVec S_ 1 := (fun x v => Host.reduce IntOp.andi x v reducesTo_S24_S_d0 h_S_) main_v41 main_c_15
  let main_v43 : IVec S_ 1 := andi main_v38 main_v42
  let main_v44 : FVec F S323x256 .f32 := Host.absf main_arg9
  let main_cst_16 : FVec F S_ .f32 := constant S_ .f32 0x7F800000#32
  let main_v45 : FVec F S323x256 .f32 := broadcastInDim S323x256 ![] bcast_S_S323x256 main_cst_16
  let main_v46 : IVec S323x256 1 := cmpf .olt main_v44 main_v45
  let main_c_17 : IVec S_ 1 := constantI S_ 1 1#1
  let main_v47 : IVec S_ 1 := (fun x v => Host.reduce IntOp.andi x v reducesTo_S323x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_v48 main_v49 main_v50

def fn_part1 {F : FTy → Type} [FloatOps F] (main_arg4 : FVec F S128 .f32) (main_arg5 : FVec F S128x64 .f32) (main_arg6 : FVec F S64 .f32) (main_arg7 : FVec F S64x24 .f32) (main_arg8 : FVec F S24 .f32) (main_arg9 : FVec F S323x256 .f32) (main_arg10 : FVec F S256 .f32) (main_arg11 : FVec F S256x256 .f32) (main_arg12 : FVec F S256 .f32) (main_arg13 : FVec F S256x256 .f32) (main_arg14 : FVec F S256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S50000x256 .f32) (main_arg1 : FVec F S256x256 .f32) (main_arg2 : FVec F S256 .f32) (main_arg3 : FVec F S256x128 .f32) (main_arg4 : FVec F S128 .f32) (main_arg5 : FVec F S128x64 .f32) (main_arg6 : FVec F S64 .f32) (main_arg7 : FVec F S64x24 .f32) (main_arg8 : FVec F S24 .f32) (main_arg9 : FVec F S323x256 .f32) (main_arg10 : FVec F S256 .f32) (main_arg11 : FVec F S256x256 .f32) (main_arg12 : FVec F S256 .f32) (main_arg13 : FVec F S256x256 .f32) (main_arg14 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S50000x256 : Shape := ⟨2, ![50000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x24 : Shape := ⟨2, ![64, 24]⟩
abbrev S24 : Shape := ⟨1, ![24]⟩
abbrev S323x256 : Shape := ⟨2, ![323, 256]⟩
abbrev S400000x3 : Shape := ⟨2, ![400000, 3]⟩
abbrev S400000x256 : Shape := ⟨2, ![400000, 256]⟩
abbrev S400x256 : Shape := ⟨2, ![400, 256]⟩
abbrev S3200x3 : Shape := ⟨2, ![3200, 3]⟩
abbrev S3200x256 : Shape := ⟨2, ![3200, 256]⟩
abbrev S1x256 : Shape := ⟨2, ![1, 256]⟩
abbrev S400x128 : Shape := ⟨2, ![400, 128]⟩
abbrev S1x128 : Shape := ⟨2, ![1, 128]⟩
abbrev S400x64 : Shape := ⟨2, ![400, 64]⟩
abbrev S1x64 : Shape := ⟨2, ![1, 64]⟩
abbrev S400x24 : Shape := ⟨2, ![400, 24]⟩
abbrev S1x24 : Shape := ⟨2, ![1, 24]⟩
abbrev S400x8x3 : Shape := ⟨3, ![400, 8, 3]⟩
abbrev S400x1x256 : Shape := ⟨3, ![400, 1, 256]⟩
abbrev S400x8x256 : Shape := ⟨3, ![400, 8, 256]⟩
abbrev S400x1x64 : Shape := ⟨3, ![400, 1, 64]⟩
abbrev S400x8x64 : Shape := ⟨3, ![400, 8, 64]⟩
abbrev S400x8x323 : Shape := ⟨3, ![400, 8, 323]⟩
abbrev S3200x323 : Shape := ⟨2, ![3200, 323]⟩
abbrev S50000 : Shape := ⟨1, ![50000]⟩
abbrev S50000x8 : Shape := ⟨2, ![50000, 8]⟩
abbrev S400000 : Shape := ⟨1, ![400000]⟩

abbrev nBuf : Space → Nat
  | .hbm => 20
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x24, .f32⟩
  | .hbm, ⟨8, _⟩ => ⟨S24, .f32⟩
  | .hbm, ⟨9, _⟩ => ⟨S323x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S400000x3, .f32⟩
  | .hbm, ⟨16, _⟩ => ⟨S400000x256, .f32⟩
  | .hbm, ⟨17, _⟩ => ⟨S50000, .i32⟩
  | .hbm, ⟨18, _⟩ => ⟨S50000x8, .i32⟩
  | .hbm, ⟨19, _⟩ => ⟨S400000, .i32⟩
  | .local _ .vmem, ⟨0, _⟩ => ⟨S400x256, .f32⟩
  | .local _ .vmem, ⟨1, _⟩ => ⟨S400x256, .f32⟩
  | .local _ .vmem, ⟨2, _⟩ => ⟨S256x256, .f32⟩
  | .local _ .vmem, ⟨3, _⟩ => ⟨S256, .f32⟩
  | .local _ .vmem, ⟨4, _⟩ => ⟨S256x128, .f32⟩
  | .local _ .vmem, ⟨5, _⟩ => ⟨S128, .f32⟩
  | .local _ .vmem, ⟨6, _⟩ => ⟨S128x64, .f32⟩
  | .local _ .vmem, ⟨7, _⟩ => ⟨S64, .f32⟩
  | .local _ .vmem, ⟨8, _⟩ => ⟨S64x24, .f32⟩
  | .local _ .vmem, ⟨9, _⟩ => ⟨S24, .f32⟩
  | .local _ .vmem, ⟨10, _⟩ => ⟨S323x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S256x256, .f32⟩
  | .local _ .vmem, ⟨15, _⟩ => ⟨S256, .f32⟩
  | .local _ .vmem, ⟨16, _⟩ => ⟨S3200x3, .f32⟩
  | .local _ .vmem, ⟨17, _⟩ => ⟨S3200x3, .f32⟩
  | .local _ .vmem, ⟨18, _⟩ => ⟨S3200x256, .f32⟩
  | .local _ .vmem, ⟨19, _⟩ => ⟨S3200x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S24 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S323x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S3200x3 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S3200x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  inb_S400x256_S400x256_0_0 : ∀ a, (![0, 0] : Fin 2 → Nat) a + S400x256.size a ≤ S400x256.size a
  h_S400x256 : 0 < S400x256.numel
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S256_S256_0 : ∀ a, (![0] : Fin 1 → Nat) a + S256.size a ≤ S256.size a
  h_S256 : 0 < S256.numel
  shapeCasts_S256_S1x256 : S256.ShapeCasts S1x256
  broadcasts_S1x256_S400x256 : S1x256.Broadcasts S400x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S400x128 : S1x128.Broadcasts S400x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S400x64 : S1x64.Broadcasts S400x64
  inb_S64x24_S64x24_0_0 : ∀ a, (![0, 0] : Fin 2 → Nat) a + S64x24.size a ≤ S64x24.size a
  h_S64x24 : 0 < S64x24.numel
  inb_S24_S24_0 : ∀ a, (![0] : Fin 1 → Nat) a + S24.size a ≤ S24.size a
  h_S24 : 0 < S24.numel
  shapeCasts_S24_S1x24 : S24.ShapeCasts S1x24
  broadcasts_S1x24_S400x24 : S1x24.Broadcasts S400x24
  shapeCasts_S400x24_S400x8x3 : S400x24.ShapeCasts S400x8x3
  shapeCasts_S400x256_S400x1x256 : S400x256.ShapeCasts S400x1x256
  shapeCasts_S400x1x256_S400x1x256 : S400x1x256.ShapeCasts S400x1x256
  broadcasts_S400x1x256_S400x8x256 : S400x1x256.Broadcasts S400x8x256
  shapeCasts_S400x64_S400x1x64 : S400x64.ShapeCasts S400x1x64
  shapeCasts_S400x1x64_S400x1x64 : S400x1x64.ShapeCasts S400x1x64
  broadcasts_S400x1x64_S400x8x64 : S400x1x64.Broadcasts S400x8x64
  concatenates_S400x8x256_S400x8x64_S400x8x3_S400x8x323_d2 : Shape.Concatenates [S400x8x256, S400x8x64, S400x8x3] S400x8x323 2
  shapeCasts_S400x8x323_S3200x323 : S400x8x323.ShapeCasts S3200x323
  inb_S323x256_S323x256_0_0 : ∀ a, (![0, 0] : Fin 2 → Nat) a + S323x256.size a ≤ S323x256.size a
  h_S323x256 : 0 < S323x256.numel
  broadcasts_S1x256_S3200x256 : S1x256.Broadcasts S3200x256
  shapeCasts_S400x8x3_S3200x3 : S400x8x3.ShapeCasts S3200x3
  inb_S3200x3_S3200x3_0_0 : ∀ a, (![0, 0] : Fin 2 → Nat) a + S3200x3.size a ≤ S3200x3.size a
  h_S3200x3 : 0 < S3200x3.numel
  inb_S3200x256_S3200x256_0_0 : ∀ a, (![0, 0] : Fin 2 → Nat) a + S3200x256.size a ≤ S3200x256.size a
  h_S3200x256 : 0 < S3200x256.numel
  bcast_S50000_S50000x8_0 : S50000.BroadcastsInDim S50000x8 (![0] : Fin 1 → Fin S50000x8.rank)
  shapeCasts_S50000x8_S400000 : S50000x8.ShapeCasts S400000
  dot_S400x256_S256x256_S400x256_1_0_0_1_n_n_wf : DotDims.WF S400x256 S256x256 S400x256 [1] [0] [0] [1] [] []
  dot_S400x256_S256x128_S400x128_1_0_0_1_n_n_wf : DotDims.WF S400x256 S256x128 S400x128 [1] [0] [0] [1] [] []
  dot_S400x128_S128x64_S400x64_1_0_0_1_n_n_wf : DotDims.WF S400x128 S128x64 S400x64 [1] [0] [0] [1] [] []
  dot_S400x64_S64x24_S400x24_1_0_0_1_n_n_wf : DotDims.WF S400x64 S64x24 S400x24 [1] [0] [0] [1] [] []
  dot_S3200x323_S323x256_S3200x256_1_0_0_1_n_n_wf : DotDims.WF S3200x323 S323x256 S3200x256 [1] [0] [0] [1] [] []
  dot_S3200x256_S256x256_S3200x256_1_0_0_1_n_n_wf : DotDims.WF S3200x256 S256x256 S3200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x256.size a ≤ S50000x256.size a
  hwx0_0 : ∀ i : grid0.Coords, EltTy.bits .f32 = 32 ∨ (Rect.block (s := S50000x256) S400x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x24.size a ≤ S64x24.size a
  hwx0_7 : ∀ i : grid0.Coords, EltTy.bits .f32 = 32 ∨ (Rect.block (s := S64x24) S64x24.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S24.size a ≤ S24.size a
  hwx0_8 : ∀ i : grid0.Coords, EltTy.bits .f32 = 32 ∨ (Rect.block (s := S24) S24.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S323x256.size a ≤ S323x256.size a
  hwx0_9 : ∀ i : grid0.Coords, EltTy.bits .f32 = 32 ∨ (Rect.block (s := S323x256) S323x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .f32 = 32 ∨ (Rect.block (s := S256x256) S256x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S3200x3.size a ≤ S400000x3.size a
  hwx0_15 : ∀ i : grid0.Coords, EltTy.bits .f32 = 32 ∨ (Rect.block (s := S400000x3) S3200x3.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S3200x256.size a ≤ S400000x256.size a
  hwx0_16 : ∀ i : grid0.Coords, EltTy.bits .f32 = 32 ∨ (Rect.block (s := S400000x256) S3200x256.size (cc0_transform_16 i) (hinb0_16 i)).WholeWords (EltTy.packing .f32)

variable [Facts₀]

def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x64_S64x24_S400x24_1_0_0_1_n_n : DotDims S400x64 S64x24 S400x24 where
  lhsContracting := [1]
  rhsContracting := [0]
  lhsNonContracting := [0]
  rhsNonContracting := [1]
  lhsBatch := []
  rhsBatch := []
  wf := dot_S400x64_S64x24_S400x24_1_0_0_1_n_n_wf
def dot_S3200x323_S323x256_S3200x256_1_0_0_1_n_n : DotDims S3200x323 S323x256 S3200x256 where
  lhsContracting := [1]
  rhsContracting := [0]
  lhsNonContracting := [0]
  rhsNonContracting := [1]
  lhsBatch := []
  rhsBatch := []
  wf := dot_S3200x323_S323x256_S3200x256_1_0_0_1_n_n_wf
def dot_S3200x256_S256x256_S3200x256_1_0_0_1_n_n : DotDims S3200x256 S256x256 S3200x256 where
  lhsContracting := [1]
  rhsContracting := [0]
  lhsNonContracting := [0]
  rhsNonContracting := [1]
  lhsBatch := []
  rhsBatch := []
  wf := dot_S3200x256_S256x256_S3200x256_1_0_0_1_n_n_wf

abbrev win0_0 : Pipeline.Window sig grid0 :=
  Pipeline.Window.ofSpec (Memref.whole main_arg0) S400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x24.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S24.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S323x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0_0) S3200x3.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v0_1) S3200x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S50000x256 : Shape := ⟨2, ![50000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x24 : Shape := ⟨2, ![64, 24]⟩
abbrev S24 : Shape := ⟨1, ![24]⟩
abbrev S323x256 : Shape := ⟨2, ![323, 256]⟩
abbrev S1x256 : Shape := ⟨2, ![1, 256]⟩
abbrev S_ : Shape := ⟨0, ![]⟩
abbrev S50000x128 : Shape := ⟨2, ![50000, 128]⟩
abbrev S1x128 : Shape := ⟨2, ![1, 128]⟩
abbrev S50000x64 : Shape := ⟨2, ![50000, 64]⟩
abbrev S1x64 : Shape := ⟨2, ![1, 64]⟩
abbrev S50000x24 : Shape := ⟨2, ![50000, 24]⟩
abbrev S1x24 : Shape := ⟨2, ![1, 24]⟩
abbrev S400000x3 : Shape := ⟨2, ![400000, 3]⟩
abbrev S50000 : Shape := ⟨1, ![50000]⟩
abbrev S50000x8 : Shape := ⟨2, ![50000, 8]⟩
abbrev S400000 : Shape := ⟨1, ![400000]⟩
abbrev S400000x1 : Shape := ⟨2, ![400000, 1]⟩
abbrev S1 : Shape := ⟨1, ![1]⟩
abbrev S1x1 : Shape := ⟨2, ![1, 1]⟩
abbrev S400000x64 : Shape := ⟨2, ![400000, 64]⟩
abbrev S400000x256 : Shape := ⟨2, ![400000, 256]⟩
abbrev S400000x323 : Shape := ⟨2, ![400000, 323]⟩

abbrev nBuf : Space → Nat
  | .hbm => 112
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x24, .f32⟩
  | .hbm, ⟨8, _⟩ => ⟨S24, .f32⟩
  | .hbm, ⟨9, _⟩ => ⟨S323x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S50000x256, .f32⟩
  | .hbm, ⟨16, _⟩ => ⟨S1x256, .f32⟩
  | .hbm, ⟨17, _⟩ => ⟨S50000x256, .f32⟩
  | .hbm, ⟨18, _⟩ => ⟨S50000x256, .f32⟩
  | .hbm, ⟨19, _⟩ => ⟨S_, .f32⟩
  | .hbm, ⟨20, _⟩ => ⟨S50000x256, .f32⟩
  | .hbm, ⟨21, _⟩ => ⟨S50000x256, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S50000x128, .f32⟩
  | .hbm, ⟨28, _⟩ => ⟨S50000x128, .f32⟩
  | .hbm, ⟨29, _⟩ => ⟨S50000x64, .f32⟩
  | .hbm, ⟨30, _⟩ => ⟨S1x64, .f32⟩
  | .hbm, ⟨31, _⟩ => ⟨S50000x64, .f32⟩
  | .hbm, ⟨32, _⟩ => ⟨S50000x64, .f32⟩
  | .hbm, ⟨33, _⟩ => ⟨S_, .f32⟩
  | .hbm, ⟨34, _⟩ => ⟨S50000x64, .f32⟩
  | .hbm, ⟨35, _⟩ => ⟨S50000x64, .f32⟩
  | .hbm, ⟨36, _⟩ => ⟨S50000x24, .f32⟩
  | .hbm, ⟨37, _⟩ => ⟨S1x24, .f32⟩
  | .hbm, ⟨38, _⟩ => ⟨S50000x24, .f32⟩
  | .hbm, ⟨39, _⟩ => ⟨S50000x24, .f32⟩
  | .hbm, ⟨40, _⟩ => ⟨S400000x3, .f32⟩
  | .hbm, ⟨41, _⟩ => ⟨S50000, .i32⟩
  | .hbm, ⟨42, _⟩ => ⟨S50000x8, .i32⟩
  | .hbm, ⟨43, _⟩ => ⟨S400000, .i32⟩
  | .hbm, ⟨44, _⟩ => ⟨S_, .i32⟩
  | .hbm, ⟨45, _⟩ => ⟨S400000, .i32⟩
  | .hbm, ⟨46, _⟩ => ⟨S400000, .i1⟩
  | .hbm, ⟨47, _⟩ => ⟨S_, .i32⟩
  | .hbm, ⟨48, _⟩ => ⟨S400000, .i32⟩
  | .hbm, ⟨49, _⟩ => ⟨S400000, .i32⟩
  | .hbm, ⟨50, _⟩ => ⟨S400000, .i32⟩
  | .hbm, ⟨51, _⟩ => ⟨S400000x1, .i32⟩
  | .hbm, ⟨52, _⟩ => ⟨S1, .i32⟩
  | .hbm, ⟨53, _⟩ => ⟨S_, .i32⟩
  | .hbm, ⟨54, _⟩ => ⟨S400000x1, .i32⟩
  | .hbm, ⟨55, _⟩ => ⟨S400000x1, .i1⟩
  | .hbm, ⟨56, _⟩ => ⟨S1x1, .i32⟩
  | .hbm, ⟨57, _⟩ => ⟨S400000x1, .i32⟩
  | .hbm, ⟨58, _⟩ => ⟨S400000x1, .i1⟩
  | .hbm, ⟨59, _⟩ => ⟨S400000x1, .i1⟩
  | .hbm, ⟨60, _⟩ => ⟨S_, .i1⟩
  | .hbm, ⟨61, _⟩ => ⟨S400000, .i1⟩
  | .hbm, ⟨62, _⟩ => ⟨S400000x64, .f32⟩
  | .hbm, ⟨63, _⟩ => ⟨S400000x64, .i1⟩
  | .hbm, ⟨64, _⟩ => ⟨S_, .f32⟩
  | .hbm, ⟨65, _⟩ => ⟨S400000x64, .f32⟩
  | .hbm, ⟨66, _⟩ => ⟨S400000x64, .f32⟩
  | .hbm, ⟨67, _⟩ => ⟨S_, .i32⟩
  | .hbm, ⟨68, _⟩ => ⟨S400000, .i32⟩
  | .hbm, ⟨69, _⟩ => ⟨S400000, .i1⟩
  | .hbm, ⟨70, _⟩ => ⟨S_, .i32⟩
  | .hbm, ⟨71, _⟩ => ⟨S400000, .i32⟩
  | .hbm, ⟨72, _⟩ => ⟨S400000, .i32⟩
  | .hbm, ⟨73, _⟩ => ⟨S400000, .i32⟩
  | .hbm, ⟨74, _⟩ => ⟨S400000x1, .i32⟩
  | .hbm, ⟨75, _⟩ => ⟨S1, .i32⟩
  | .hbm, ⟨76, _⟩ => ⟨S_, .i32⟩
  | .hbm, ⟨77, _⟩ => ⟨S400000x1, .i32⟩
  | .hbm, ⟨78, _⟩ => ⟨S400000x1, .i1⟩
  | .hbm, ⟨79, _⟩ => ⟨S1x1, .i32⟩
  | .hbm, ⟨80, _⟩ => ⟨S400000x1, .i32⟩
  | .hbm, ⟨81, _⟩ => ⟨S400000x1, .i1⟩
  | .hbm, ⟨82, _⟩ => ⟨S400000x1, .i1⟩
  | .hbm, ⟨83, _⟩ => ⟨S_, .i1⟩
  | .hbm, ⟨84, _⟩ => ⟨S400000, .i1⟩
  | .hbm, ⟨85, _⟩ => ⟨S400000x256, .f32⟩
  | .hbm, ⟨86, _⟩ => ⟨S400000x256, .i1⟩
  | .hbm, ⟨87, _⟩ => ⟨S_, .f32⟩
  | .hbm, ⟨88, _⟩ => ⟨S400000x256, .f32⟩
  | .hbm, ⟨89, _⟩ => ⟨S400000x256, .f32⟩
  | .hbm, ⟨90, _⟩ => ⟨S400000x323, .f32⟩
  | .hbm, ⟨91, _⟩ => ⟨S400000x256, .f32⟩
  | .hbm, ⟨92, _⟩ => ⟨S1x256, .f32⟩
  | .hbm, ⟨93, _⟩ => ⟨S400000x256, .f32⟩
  | .hbm, ⟨94, _⟩ => ⟨S400000x256, .f32⟩
  | .hbm, ⟨95, _⟩ => ⟨S_, .f32⟩
  | .hbm, ⟨96, _⟩ => ⟨S400000x256, .f32⟩
  | .hbm, ⟨97, _⟩ => ⟨S400000x256, .f32⟩
  | .hbm, ⟨98, _⟩ => ⟨S400000x256, .f32⟩
  | .hbm, ⟨99, _⟩ => ⟨S1x256, .f32⟩
  | .hbm, ⟨100, _⟩ => ⟨S400000x256, .f32⟩
  | .hbm, ⟨101, _⟩ => ⟨S400000x256, .f32⟩
  | .hbm, ⟨102, _⟩ => ⟨S_, .f32⟩
  | .hbm, ⟨103, _⟩ => ⟨S400000x256, .f32⟩
  | .hbm, ⟨104, _⟩ => ⟨S400000x256, .f32⟩
  | .hbm, ⟨105, _⟩ => ⟨S400000x256, .f32⟩
  | .hbm, ⟨106, _⟩ => ⟨S1x256, .f32⟩
  | .hbm, ⟨107, _⟩ => ⟨S400000x256, .f32⟩
  | .hbm, ⟨108, _⟩ => ⟨S400000x256, .f32⟩
  | .hbm, ⟨109, _⟩ => ⟨S_, .f32⟩
  | .hbm, ⟨110, _⟩ => ⟨S400000x256, .f32⟩
  | .hbm, ⟨111, _⟩ => ⟨S400000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_cst : Ref sig .tc := ⟨.hbm, 26, rfl⟩
abbrev main_call1_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call2_cst : Ref sig .tc := ⟨.hbm, 33, rfl⟩
abbrev main_call2_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call3_c : Ref sig .tc := ⟨.hbm, 44, rfl⟩
abbrev main_call3_v0 : Ref sig .tc := ⟨.hbm, 45, rfl⟩
abbrev main_call3_v1 : Ref sig .tc := ⟨.hbm, 46, rfl⟩
abbrev main_call3_c_0 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_call3_v5 : Ref sig .tc := ⟨.hbm, 51, rfl⟩
abbrev main_call3_c_1 : Ref sig .tc := ⟨.hbm, 52, rfl⟩
abbrev main_call3_c_2 : Ref sig .tc := ⟨.hbm, 53, rfl⟩
abbrev main_call3_v6 : Ref sig .tc := ⟨.hbm, 54, rfl⟩
abbrev main_call3_v7 : Ref sig .tc := ⟨.hbm, 55, rfl⟩
abbrev main_call3_v8 : Ref sig .tc := ⟨.hbm, 56, rfl⟩
abbrev main_call3_v9 : Ref sig .tc := ⟨.hbm, 57, rfl⟩
abbrev main_call3_v10 : Ref sig .tc := ⟨.hbm, 58, rfl⟩
abbrev main_call3_v11 : Ref sig .tc := ⟨.hbm, 59, rfl⟩
abbrev main_call3_c_3 : Ref sig .tc := ⟨.hbm, 60, rfl⟩
abbrev main_call3_v12 : Ref sig .tc := ⟨.hbm, 61, rfl⟩
abbrev main_call3_v13 : Ref sig .tc := ⟨.hbm, 62, rfl⟩
abbrev main_call3_v14 : Ref sig .tc := ⟨.hbm, 63, rfl⟩
abbrev main_call3_cst : Ref sig .tc := ⟨.hbm, 64, rfl⟩
abbrev main_call3_v15 : Ref sig .tc := ⟨.hbm, 65, rfl⟩
abbrev main_v23 : Ref sig .tc := ⟨.hbm, 66, rfl⟩
abbrev main_call4_c : Ref sig .tc := ⟨.hbm, 67, rfl⟩
abbrev main_call4_v0 : Ref sig .tc := ⟨.hbm, 68, rfl⟩
abbrev main_call4_v1 : Ref sig .tc := ⟨.hbm, 69, rfl⟩
abbrev main_call4_c_0 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_call4_v5 : Ref sig .tc := ⟨.hbm, 74, rfl⟩
abbrev main_call4_c_1 : Ref sig .tc := ⟨.hbm, 75, rfl⟩
abbrev main_call4_c_2 : Ref sig .tc := ⟨.hbm, 76, rfl⟩
abbrev main_call4_v6 : Ref sig .tc := ⟨.hbm, 77, rfl⟩
abbrev main_call4_v7 : Ref sig .tc := ⟨.hbm, 78, rfl⟩
abbrev main_call4_v8 : Ref sig .tc := ⟨.hbm, 79, rfl⟩
abbrev main_call4_v9 : Ref sig .tc := ⟨.hbm, 80, rfl⟩
abbrev main_call4_v10 : Ref sig .tc := ⟨.hbm, 81, rfl⟩
abbrev main_call4_v11 : Ref sig .tc := ⟨.hbm, 82, rfl⟩
abbrev main_call4_c_3 : Ref sig .tc := ⟨.hbm, 83, rfl⟩
abbrev main_call4_v12 : Ref sig .tc := ⟨.hbm, 84, rfl⟩
abbrev main_call4_v13 : Ref sig .tc := ⟨.hbm, 85, rfl⟩
abbrev main_call4_v14 : Ref sig .tc := ⟨.hbm, 86, rfl⟩
abbrev main_call4_cst : Ref sig .tc := ⟨.hbm, 87, rfl⟩
abbrev main_call4_v15 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_call5_cst : Ref sig .tc := ⟨.hbm, 95, rfl⟩
abbrev main_call5_v0 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_call6_cst : Ref sig .tc := ⟨.hbm, 102, rfl⟩
abbrev main_call6_v0 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_call7_cst : Ref sig .tc := ⟨.hbm, 109, rfl⟩
abbrev main_call7_v0 : Ref sig .tc := ⟨.hbm, 110, rfl⟩
abbrev main_v40 : Ref sig .tc := ⟨.hbm, 111, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S24_S1x24_1 : S24.BroadcastsInDim S1x24 (![1] : Fin 1 → Fin S1x24.rank)
  bcast_S1x24_S50000x24_0_1 : S1x24.BroadcastsInDim S50000x24 (![0, 1] : Fin 2 → Fin S50000x24.rank)
  shapeCasts_S50000x24_S400000x3 : S50000x24.ShapeCasts S400000x3
  bcast_S50000_S50000x8_0 : S50000.BroadcastsInDim S50000x8 (![0] : Fin 1 → Fin S50000x8.rank)
  shapeCasts_S50000x8_S400000 : S50000x8.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x64_0 : S400000.BroadcastsInDim S400000x64 (![0] : Fin 1 → Fin S400000x64.rank)
  bcast_S_S400000x64 : S_.BroadcastsInDim S400000x64 (![] : Fin 0 → Fin S400000x64.rank)
  bcast_S400000_S400000x256_0 : S400000.BroadcastsInDim S400000x256 (![0] : Fin 1 → Fin S400000x256.rank)
  bcast_S_S400000x256 : S_.BroadcastsInDim S400000x256 (![] : Fin 0 → Fin S400000x256.rank)
  concatenates_S400000x256_S400000x64_S400000x3_S400000x323_d1 : Shape.Concatenates [S400000x256, S400000x64, S400000x3] S400000x323 1
  bcast_S1x256_S400000x256_0_1 : S1x256.BroadcastsInDim S400000x256 (![0, 1] : Fin 2 → Fin S400000x256.rank)
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  dot_S50000x128_S128x64_S50000x64_1_0_0_1_n_n_wf : DotDims.WF S50000x128 S128x64 S50000x64 [1] [0] [0] [1] [] []
  dot_S50000x64_S64x24_S50000x24_1_0_0_1_n_n_wf : DotDims.WF S50000x64 S64x24 S50000x24 [1] [0] [0] [1] [] []
  gather_S50000x64_S400000x1_S400000x64_1_0_n_n_0_1_164_wf : GatherDims.WF S50000x64 S400000x1 S400000x64 [1] [0] [] [0] [] 1 ![1, 64]
  gather_S50000x256_S400000x1_S400000x256_1_0_n_n_0_1_1256_wf : GatherDims.WF S50000x256 S400000x1 S400000x256 [1] [0] [] [0] [] 1 ![1, 256]
  dot_S400000x323_S323x256_S400000x256_1_0_0_1_n_n_wf : DotDims.WF S400000x323 S323x256 S400000x256 [1] [0] [0] [1] [] []
  dot_S400000x256_S256x256_S400000x256_1_0_0_1_n_n_wf : DotDims.WF S400000x256 S256x256 S400000x256 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x24_S50000x24_1_0_0_1_n_n : DotDims S50000x64 S64x24 S50000x24 where
  lhsContracting := [1]
  rhsContracting := [0]
  lhsNonContracting := [0]
  rhsNonContracting := [1]
  lhsBatch := []
  rhsBatch := []
  wf := dot_S50000x64_S64x24_S50000x24_1_0_0_1_n_n_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def dot_S400000x323_S323x256_S400000x256_1_0_0_1_n_n : DotDims S400000x323 S323x256 S400000x256 where
  lhsContracting := [1]
  rhsContracting := [0]
  lhsNonContracting := [0]
  rhsNonContracting := [1]
  lhsBatch := []
  rhsBatch := []
  wf := dot_S400000x323_S323x256_S400000x256_1_0_0_1_n_n_wf
def dot_S400000x256_S256x256_S400000x256_1_0_0_1_n_n : DotDims S400000x256 S256x256 S400000x256 where
  lhsContracting := [1]
  rhsContracting := [0]
  lhsNonContracting := [0]
  rhsNonContracting := [1]
  lhsBatch := []
  rhsBatch := []
  wf := dot_S400000x256_S256x256_S400000x256_1_0_0_1_n_n_wf

class Facts : Prop extends Facts₀ where

variable [Facts]
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.Spec.lean ====
/-
  What both programs compute, as functions of the fifteen argument arrays over the extended reals.

  Each of the 50000 nodes has a row  x  of 256 input features. A three-layer perceptron (256 → 256 → 128 → 64, each
  layer an affine map followed by the rectifier) turns it into 64 global features (`feats`); a linear head
  (64 → 24) turns those into eight relative points of three coordinates each (`relRow`: point q occupies entries
  3q, 3q+1, 3q+2). Point q of the node is then decoded by a second three-layer perceptron (323 → 256 → 256 → 256) from the
  323 numbers "the node's 256 inputs, its 64 global features, the point's 3 coordinates" (`pointIn`, `decRow`).
  The results list the 8 · 50000 points node by node: row j of each result belongs to node j / 8 and point j % 8
  (`Grel`: the [400000, 3] coordinates; `Gdec`: the [400000, 256] decoded features).
-/
import proofs.«144889_j38044820308123_1_alg».proof.Proof.LibDense

noncomputable section

namespace Cert.Spec

open Idealize.ShloMosaic Idealize.ShloMosaic.ValueIdx Cert.Dense

/-- The fourteen weight and bias arrays. -/
structure Weights where
  wg0 : FVec Ideal ⟨2, ![256, 256]⟩ .f32
  bg0 : FVec Ideal ⟨1, ![256]⟩ .f32
  wg1 : FVec Ideal ⟨2, ![256, 128]⟩ .f32
  bg1 : FVec Ideal ⟨1, ![128]⟩ .f32
  wg2 : FVec Ideal ⟨2, ![128, 64]⟩ .f32
  bg2 : FVec Ideal ⟨1, ![64]⟩ .f32
  wdec : FVec Ideal ⟨2, ![64, 24]⟩ .f32
  bdec : FVec Ideal ⟨1, ![24]⟩ .f32
  w0 : FVec Ideal ⟨2, ![323, 256]⟩ .f32
  b0 : FVec Ideal ⟨1, ![256]⟩ .f32
  w1 : FVec Ideal ⟨2, ![256, 256]⟩ .f32
  b1 : FVec Ideal ⟨1, ![256]⟩ .f32
  w2 : FVec Ideal ⟨2, ![256, 256]⟩ .f32
  b2 : FVec Ideal ⟨1, ![256]⟩ .f32

/-- A node's 64 global features from its 256 inputs. -/
def feats (P : Weights) (x : Fin 256 → EReal) : Fin 64 → EReal :=
  relu (affine P.wg2 P.bg2 (relu (affine P.wg1 P.bg1 (relu (affine P.wg0 P.bg0 x)))))

/-- A node's 24 relative coordinates (eight points of three). -/
def relRow (P : Weights) (x : Fin 256 → EReal) : Fin 24 → EReal := affine P.wdec P.bdec (feats P x)

/-- The 323 numbers point q of a node is decoded from: the inputs, the global features, the point's coordinates. -/
def pointIn (P : Weights) (x : Fin 256 → EReal) (q : Fin 8) : Fin 323 → EReal := fun k =>
  if h : k.val < 256 then x ⟨k.val, h⟩
  else if h2 : k.val < 320 then feats P x ⟨k.val - 256, by omega⟩
  else relRow P x ⟨3 * q.val + (k.val - 320), by have := k.isLt; have := q.isLt; omega⟩

/-- The 256 decoded features of point q of a node. -/
def decRow (P : Weights) (x : Fin 256 → EReal) (q : Fin 8) : Fin 256 → EReal :=
  relu (affine P.w2 P.b2 (relu (affine P.w1 P.b1 (relu (affine P.w0 P.b0 (pointIn P x q))))))

/-- Node n's input row. -/
def rowOf (X : FVec Ideal ⟨2, ![50000, 256]⟩ .f32) (n : Fin 50000) : Fin 256 → EReal := fun k => X (ix2 n k)

/-- The first result: row j holds the three coordinates of point j % 8 of node j / 8. -/
def Grel (P : Weights) (X : FVec Ideal ⟨2, ![50000, 256]⟩ .f32) : FVec Ideal ⟨2, ![400000, 3]⟩ .f32 := fun i =>
  relRow P (rowOf X ⟨(i 0).val / 8, by have := idx2_lt0 i; omega⟩)
    ⟨3 * ((i 0).val % 8) + (i 1).val, by have := idx2_lt1 i; omega⟩

/-- The second result: row j holds the 256 decoded features of point j % 8 of node j / 8. -/
def Gdec (P : Weights) (X : FVec Ideal ⟨2, ![50000, 256]⟩ .f32) : FVec Ideal ⟨2, ![400000, 256]⟩ .f32 := fun i =>
  decRow P (rowOf X ⟨(i 0).val / 8, by have := idx2_lt0 i; omega⟩) ⟨(i 0).val % 8, by omega⟩
    ⟨(i 1).val, idx2_lt1 i⟩

end Cert.Spec

end
-- ==== Proof.KBlock.lean ====
/-
  The kernel's global perceptron and coordinate head on one tile of 400 nodes, entry by entry.

  Row p of the loaded [400, 256] block is one node. Three rectified layers give its 64 global features
  (`feats_block_apply`), the linear head its 24 coordinates (`rel24_block_apply`); laid out as [400, 8, 3] the entry
  (p, q, c) is coordinate 3 q + c of node p (`pay4_apply`), and laid out again as [3200, 3] row r is point r % 8 of node
  r / 8 (`rel_block_apply`): both re-layouts keep the row-major order of the 9600 numbers.
-/
import proofs.«144889_j38044820308123_1_alg».proof.Proof.Gen.KernelIdeal.Skeleton
import proofs.«144889_j38044820308123_1_alg».proof.Proof.Spec

noncomputable section

namespace Cert.KernelIdeal.KBlock

open Idealize.ShloMosaic Idealize.ShloMosaic.ValueIdx Cert.KernelIdeal Cert.KernelIdeal.Gen Cert.Spec Cert.Dense

/-- The fourteen weight arrays as the body loads them. -/
abbrev wts (x1 : Vec Ideal S256x256 .f32) (x2 : Vec Ideal S256 .f32) (x3 : Vec Ideal S256x128 .f32) (x4 : Vec Ideal S128 .f32) (x5 : Vec Ideal S128x64 .f32) (x6 : Vec Ideal S64 .f32) (x7 : Vec Ideal S64x24 .f32) (x8 : Vec Ideal S24 .f32) (x9 : Vec Ideal S323x256 .f32) (x10 : Vec Ideal S256 .f32) (x11 : Vec Ideal S256x256 .f32) (x12 : Vec Ideal S256 .f32) (x13 : Vec Ideal S256x256 .f32) (x14 : Vec Ideal S256 .f32) : Weights :=
  ⟨x1, x2, x3, x4, x5, x6, x7, x8, x9, x10, x11, x12, x13, x14⟩

/-- Block row p as a row of 256 numbers. -/
abbrev brow (x0 : Vec Ideal S400x256 .f32) (p : Fin 400) : Fin 256 → EReal := fun k => x0 (ix2 p k)

/-- One rectified layer as the kernel spells it — the product into zeros, the bias row added to every row, the maximum
    with zero — at (r, c): the rectified affine image of row r. -/
theorem layer_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    maximumf
        (addf (matmul d none (truncf .bf16 X hlt) (truncf .bf16 W hlt) (constant ⟨2, ![R, C]⟩ .f32 0x00000000#32))
          (broadcastTo ⟨2, ![R, C]⟩ (shapeCast ⟨2, ![1, C]⟩ b hsc) hbc))
        (broadcast ⟨2, ![R, C]⟩ (Scalar.ofBits (F := Ideal) .f32 0x00000000#32)) (ix2 r c)
      = relu (affine W b (fun k => X (ix2 r k))) c := by
  rw [kernel_relu_apply, kernel_affine_apply d h1 h2 h3 h4 h5 h6 hlt hsc hbc X W b r c]
  rfl

/-- The 64 global features of block row p. -/
theorem feats_block_apply (x0 : Vec Ideal S400x256 .f32) (x1 : Vec Ideal S256x256 .f32) (x2 : Vec Ideal S256 .f32) (x3 : Vec Ideal S256x128 .f32) (x4 : Vec Ideal S128 .f32) (x5 : Vec Ideal S128x64 .f32) (x6 : Vec Ideal S64 .f32) (x7 : Vec Ideal S64x24 .f32) (x8 : Vec Ideal S24 .f32) (x9 : Vec Ideal S323x256 .f32) (x10 : Vec Ideal S256 .f32) (x11 : Vec Ideal S256x256 .f32) (x12 : Vec Ideal S256 .f32) (x13 : Vec Ideal S256x256 .f32) (x14 : Vec Ideal S256 .f32) (p : Fin 400) (c : Fin 64) :
    k0_pay1 x0 x1 x2 x3 x4 x5 x6 (ix2 p c)
      = feats (wts x1 x2 x3 x4 x5 x6 x7 x8 x9 x10 x11 x12 x13 x14) (brow x0 p) c := by
  unfold k0_pay1
  -- the third layer, applied to row p of the second layer's result
  refine (layer_apply (R := 400) (K := 128) (C := 64) dot_S400x128_S128x64_S400x64_1_0_0_1_n_n rfl rfl rfl rfl rfl rfl
    _ _ _ _ x5 x6 p c).trans ?_
  refine congrArg (fun v => relu (affine x5 x6 v) c) (funext fun k2 => ?_)
  -- the second layer, applied to row p of the first layer's result
  refine (layer_apply (R := 400) (K := 256) (C := 128) dot_S400x256_S256x128_S400x128_1_0_0_1_n_n rfl rfl rfl rfl rfl rfl
    _ _ _ _ x3 x4 p k2).trans ?_
  refine congrArg (fun v => relu (affine x3 x4 v) k2) (funext fun k1 => ?_)
  -- the first layer, applied to row p of the block
  exact layer_apply (R := 400) (K := 256) (C := 256) dot_S400x256_S256x256_S400x256_1_0_0_1_n_n rfl rfl rfl rfl rfl rfl
    _ _ _ x0 x1 x2 p k1

/-- The 24 coordinates of block row p: the head's product plus its bias row. -/
theorem rel24_block_apply (x0 : Vec Ideal S400x256 .f32) (x1 : Vec Ideal S256x256 .f32) (x2 : Vec Ideal S256 .f32) (x3 : Vec Ideal S256x128 .f32) (x4 : Vec Ideal S128 .f32) (x5 : Vec Ideal S128x64 .f32) (x6 : Vec Ideal S64 .f32) (x7 : Vec Ideal S64x24 .f32) (x8 : Vec Ideal S24 .f32) (x9 : Vec Ideal S323x256 .f32) (x10 : Vec Ideal S256 .f32) (x11 : Vec Ideal S256x256 .f32) (x12 : Vec Ideal S256 .f32) (x13 : Vec Ideal S256x256 .f32) (x14 : Vec Ideal S256 .f32) (p : Fin 400) (e : Fin 24) :
    addf (k0_pay2 x0 x1 x2 x3 x4 x5 x6 x7) (k0_pay3 x8) (ix2 p e)
      = relRow (wts x1 x2 x3 x4 x5 x6 x7 x8 x9 x10 x11 x12 x13 x14) (brow x0 p) e := by
  unfold k0_pay2 k0_pay3
  -- the head's affine map, applied to row p of the feature array
  refine (kernel_affine_apply (R := 400) (K := 64) (C := 24) dot_S400x64_S64x24_S400x24_1_0_0_1_n_n rfl rfl rfl rfl rfl rfl
    _ _ _ (k0_pay1 x0 x1 x2 x3 x4 x5 x6) x7 x8 p e).trans ?_
  -- row p of the feature array is the feature row of block row p
  refine congrArg (fun v => affine x7 x8 v e) (funext fun k => ?_)
  exact feats_block_apply x0 x1 x2 x3 x4 x5 x6 x7 x8 x9 x10 x11 x12 x13 x14 p k

/-- The coordinates laid out as [400, 8, 3]: entry (p, q, c) is entry 3 q + c of row p of the sum. -/
theorem pay4_apply (v34 v37 : FVec Ideal S400x24 .f32) (p : Fin 400) (q : Fin 8) (c : Fin 3) :
    k0_pay4 v34 v37 (ix3 p q c) = addf v34 v37 (ix2 p ⟨3 * q.val + c.val, by omega⟩) := by
  unfold k0_pay4
  -- both indices sit at row-major position 24 p + 3 q + c
  refine shapeCast_apply (addf v34 v37) _ _ _ ?_
  rw [Shape.rowMajor_val_two, Shape.rowMajor_val_three]
  show p.val * 24 + (3 * q.val + c.val) = (p.val * 8 + q.val) * 3 + c.val
  omega

/-- The value stored to the coordinates block, at row r and coordinate c: coordinate c of point r % 8 of node r / 8. -/
theorem rel_block_apply (x0 : Vec Ideal S400x256 .f32) (x1 : Vec Ideal S256x256 .f32) (x2 : Vec Ideal S256 .f32) (x3 : Vec Ideal S256x128 .f32) (x4 : Vec Ideal S128 .f32) (x5 : Vec Ideal S128x64 .f32) (x6 : Vec Ideal S64 .f32) (x7 : Vec Ideal S64x24 .f32) (x8 : Vec Ideal S24 .f32) (x9 : Vec Ideal S323x256 .f32) (x10 : Vec Ideal S256 .f32) (x11 : Vec Ideal S256x256 .f32) (x12 : Vec Ideal S256 .f32) (x13 : Vec Ideal S256x256 .f32) (x14 : Vec Ideal S256 .f32) (r : Fin 3200) (c : Fin 3) :
    k0_pay6 (k0_pay2 x0 x1 x2 x3 x4 x5 x6 x7) (k0_pay3 x8) (ix2 r c)
      = relRow (wts x1 x2 x3 x4 x5 x6 x7 x8 x9 x10 x11 x12 x13 x14) (brow x0 ⟨r.val / 8, by omega⟩)
          ⟨3 * (r.val % 8) + c.val, by omega⟩ := by
  unfold k0_pay6
  -- (r, c) of the [3200, 3] layout and (r / 8, r % 8, c) of the [400, 8, 3] layout sit at row-major position 3 r + c
  refine (shapeCast_apply (k0_pay4 (k0_pay2 x0 x1 x2 x3 x4 x5 x6 x7) (k0_pay3 x8)) _ (ix2 r c)
    (ix3 (⟨r.val / 8, by omega⟩ : Fin 400) (⟨r.val % 8, by omega⟩ : Fin 8) c) ?_).trans ?_
  · rw [Shape.rowMajor_val_three, Shape.rowMajor_val_two]
    show (r.val / 8 * 8 + r.val % 8) * 3 + c.val = r.val * 3 + c.val
    omega
  · rw [pay4_apply]
    exact rel24_block_apply x0 x1 x2 x3 x4 x5 x6 x7 x8 x9 x10 x11 x12 x13 x14 ⟨r.val / 8, by omega⟩ ⟨3 * (r.val % 8) + c.val, by omega⟩

end Cert.KernelIdeal.KBlock

end
-- ==== Proof.KVal.lean ====
/-
  The kernel's point perceptron on one tile, entry by entry.

  Each of the 400 block rows is repeated for its 8 points; row r of the [3200, 323] input is "the 256 inputs of node
  r / 8, its 64 global features, the 3 coordinates of point r % 8" — the specification's `pointIn` — and three
  rectified layers, each acting on a row by itself, give the stored value: at row r and column c the decoded feature c
  of point r % 8 of node r / 8 (`dec_block_apply`).
-/
import proofs.«144889_j38044820308123_1_alg».proof.Proof.KBlock

noncomputable section

namespace Cert.KernelIdeal.KVal

open Idealize.ShloMosaic Idealize.ShloMosaic.ValueIdx Cert.KernelIdeal Cert.KernelIdeal.Gen Cert.Spec Cert.Dense
open Cert.KernelIdeal.KBlock

/-- The stacked [3200, 323] input of the point perceptron: the block rows, the global features and the coordinates,
    each laid out per node and point, side by side along the last axis, then the nodes' points listed row by row. -/
abbrev decIn (v0 : Vec Ideal S400x256 .f32) (v30 : FVec Ideal S400x64 .f32) (v34 v37 : FVec Ideal S400x24 .f32) :
    FVec Ideal S3200x323 .f32 :=
  shapeCast S3200x323
    (concatenate S400x8x323 2
      [⟨S400x8x256, broadcastTo S400x8x256 (shapeCast S400x1x256 (shapeCast S400x1x256 v0 shapeCasts_S400x256_S400x1x256) shapeCasts_S400x1x256_S400x1x256) broadcasts_S400x1x256_S400x8x256⟩,
       ⟨S400x8x64, broadcastTo S400x8x64 (shapeCast S400x1x64 (shapeCast S400x1x64 v30 shapeCasts_S400x64_S400x1x64) shapeCasts_S400x1x64_S400x1x64) broadcasts_S400x1x64_S400x8x64⟩,
       ⟨S400x8x3, k0_pay4 v34 v37⟩]
      concatenates_S400x8x256_S400x8x64_S400x8x3_S400x8x323_d2)
    shapeCasts_S400x8x323_S3200x323

/-- The re-layout [400, 8, 323] → [3200, 323] keeps the row-major order: row r, entry k is entry (r / 8, r % 8, k),
    since (r / 8 · 8 + r % 8) · 323 + k = r · 323 + k. -/
theorem decIn_rows (v0 : Vec Ideal S400x256 .f32) (v30 : FVec Ideal S400x64 .f32) (v34 v37 : FVec Ideal S400x24 .f32)
    (r : Fin 3200) (k : Fin 323) :
    decIn v0 v30 v34 v37 (ix2 r k)
      = concatenate S400x8x323 2
      [⟨S400x8x256, broadcastTo S400x8x256 (shapeCast S400x1x256 (shapeCast S400x1x256 v0 shapeCasts_S400x256_S400x1x256) shapeCasts_S400x1x256_S400x1x256) broadcasts_S400x1x256_S400x8x256⟩,
       ⟨S400x8x64, broadcastTo S400x8x64 (shapeCast S400x1x64 (shapeCast S400x1x64 v30 shapeCasts_S400x64_S400x1x64) shapeCasts_S400x1x64_S400x1x64) broadcasts_S400x1x64_S400x8x64⟩,
       ⟨S400x8x3, k0_pay4 v34 v37⟩]
      concatenates_S400x8x256_S400x8x64_S400x8x3_S400x8x323_d2
        (ix3 (⟨r.val / 8, by omega⟩ : Fin 400) (⟨r.val % 8, by omega⟩ : Fin 8) k) := by
  refine shapeCast_apply _ _ (ix2 r k) _ ?_
  rw [Shape.rowMajor_val_three, Shape.rowMajor_val_two]
  show (r.val / 8 * 8 + r.val % 8) * 323 + k.val = r.val * 323 + k.val
  have := Nat.div_add_mod r.val 8
  omega

/-- The three pieces laid side by side along the last axis (extents 256, 64, 3): an entry k below 256 lies in the first
    piece, at k. -/
theorem cat3_apply_0 (x1 : FVec Ideal S400x8x256 .f32) (x2 : FVec Ideal S400x8x64 .f32) (x3 : FVec Ideal S400x8x3 .f32)
    (p : Fin 400) (q : Fin 8) (k : Fin 323) (h : k.val < 256) :
    concatenate S400x8x323 2 [⟨S400x8x256, x1⟩, ⟨S400x8x64, x2⟩, ⟨S400x8x3, x3⟩]
        concatenates_S400x8x256_S400x8x64_S400x8x3_S400x8x323_d2 (ix3 p q k)
      = x1 (ix3 p q ⟨k.val, h⟩) := by
  refine concatenate_apply_piece (t := S400x8x323) (2 : Fin 3) [⟨S400x8x256, x1⟩, ⟨S400x8x64, x2⟩, ⟨S400x8x3, x3⟩]
    concatenates_S400x8x256_S400x8x64_S400x8x3_S400x8x323_d2 (ix3 p q k) 0 (by simp) S400x8x256 x1 rfl rfl 0 rfl
    (ix3 p q ⟨k.val, h⟩) ?_ ?_
  · intro b hb
    match b with
    | ⟨0, _⟩ => rfl
    | ⟨1, _⟩ => rfl
    | ⟨2, _⟩ => exact absurd rfl hb
  · show 0 + k.val = k.val
    omega

/-- An entry k with 256 ≤ k < 320 lies in the second piece, at k - 256. -/
theorem cat3_apply_1 (x1 : FVec Ideal S400x8x256 .f32) (x2 : FVec Ideal S400x8x64 .f32) (x3 : FVec Ideal S400x8x3 .f32)
    (p : Fin 400) (q : Fin 8) (k : Fin 323) (h : 256 ≤ k.val) (h2 : k.val < 320) :
    concatenate S400x8x323 2 [⟨S400x8x256, x1⟩, ⟨S400x8x64, x2⟩, ⟨S400x8x3, x3⟩]
        concatenates_S400x8x256_S400x8x64_S400x8x3_S400x8x323_d2 (ix3 p q k)
      = x2 (ix3 p q ⟨k.val - 256, by omega⟩) := by
  refine concatenate_apply_piece (t := S400x8x323) (2 : Fin 3) [⟨S400x8x256, x1⟩, ⟨S400x8x64, x2⟩, ⟨S400x8x3, x3⟩]
    concatenates_S400x8x256_S400x8x64_S400x8x3_S400x8x323_d2 (ix3 p q k) 1 (by simp) S400x8x64 x2 rfl rfl 256 rfl
    (ix3 p q ⟨k.val - 256, by omega⟩) ?_ ?_
  · intro b hb
    match b with
    | ⟨0, _⟩ => rfl
    | ⟨1, _⟩ => rfl
    | ⟨2, _⟩ => exact absurd rfl hb
  · show 256 + (k.val - 256) = k.val
    omega

/-- An entry k with 320 ≤ k lies in the third piece, at k - 320. -/
theorem cat3_apply_2 (x1 : FVec Ideal S400x8x256 .f32) (x2 : FVec Ideal S400x8x64 .f32) (x3 : FVec Ideal S400x8x3 .f32)
    (p : Fin 400) (q : Fin 8) (k : Fin 323) (h : 320 ≤ k.val) :
    concatenate S400x8x323 2 [⟨S400x8x256, x1⟩, ⟨S400x8x64, x2⟩, ⟨S400x8x3, x3⟩]
        concatenates_S400x8x256_S400x8x64_S400x8x3_S400x8x323_d2 (ix3 p q k)
      = x3 (ix3 p q ⟨k.val - 320, by have := k.isLt; omega⟩) := by
  refine concatenate_apply_piece (t := S400x8x323) (2 : Fin 3) [⟨S400x8x256, x1⟩, ⟨S400x8x64, x2⟩, ⟨S400x8x3, x3⟩]
    concatenates_S400x8x256_S400x8x64_S400x8x3_S400x8x323_d2 (ix3 p q k) 2 (by simp) S400x8x3 x3 rfl rfl 320 rfl
    (ix3 p q ⟨k.val - 320, by have := k.isLt; omega⟩) ?_ ?_
  · intro b hb
    match b with
    | ⟨0, _⟩ => rfl
    | ⟨1, _⟩ => rfl
    | ⟨2, _⟩ => exact absurd rfl hb
  · show 320 + (k.val - 320) = k.val
    omega

/-- A [400, W] array viewed [400, 1, W] and repeated over 8 points, at (p, q, k): the array at (p, k). -/
theorem rep8_apply {W : Nat} (v : FVec Ideal ⟨2, ![400, W]⟩ .f32)
    (h1 : (⟨2, ![400, W]⟩ : Shape).ShapeCasts ⟨3, ![400, 1, W]⟩)
    (h2 : (⟨3, ![400, 1, W]⟩ : Shape).ShapeCasts ⟨3, ![400, 1, W]⟩)
    (h3 : (⟨3, ![400, 1, W]⟩ : Shape).Broadcasts ⟨3, ![400, 8, W]⟩) (hW : W ≠ 1)
    (p : Fin 400) (q : Fin 8) (k : Fin W) :
    broadcastTo ⟨3, ![400, 8, W]⟩ (shapeCast ⟨3, ![400, 1, W]⟩ (shapeCast ⟨3, ![400, 1, W]⟩ v h1) h2) h3 (ix3 p q k)
      = v (ix2 p k) := by
  rw [shapeCast_self]
  refine (broadcastTo_apply _ h3 (ix3 p q k) (ix3 p (⟨0, by omega⟩ : Fin 1) k) ?_).trans ?_
  · intro a
    match a with
    | ⟨0, _⟩ => rfl
    | ⟨1, _⟩ => rfl
    | ⟨2, _⟩ =>
      show k.val = if W = 1 then 0 else k.val
      rw [if_neg hW]
  · refine shapeCast_apply _ h1 _ (ix2 p k) ?_
    rw [Shape.rowMajor_val_three, Shape.rowMajor_val_two]
    show p.val * W + k.val = (p.val * 1 + 0) * W + k.val
    rw [Nat.mul_one, Nat.add_zero]

/-- Row r of the stacked input, entry k: the node's input k, its global feature k - 256, or coordinate k - 320 of
    point r % 8, by the span k falls in. -/
theorem decIn_apply (v0 : Vec Ideal S400x256 .f32) (v30 : FVec Ideal S400x64 .f32) (v34 v37 : FVec Ideal S400x24 .f32)
    (r : Fin 3200) (k : Fin 323) :
    decIn v0 v30 v34 v37 (ix2 r k)
      = if h : k.val < 256 then v0 (ix2 (⟨r.val / 8, by omega⟩ : Fin 400) (⟨k.val, h⟩ : Fin 256))
        else if h2 : k.val < 320 then v30 (ix2 (⟨r.val / 8, by omega⟩ : Fin 400) (⟨k.val - 256, by omega⟩ : Fin 64))
        else addf v34 v37 (ix2 (⟨r.val / 8, by omega⟩ : Fin 400)
          (⟨3 * (r.val % 8) + (k.val - 320), by have := k.isLt; omega⟩ : Fin 24)) := by
  rw [decIn_rows]
  by_cases h : k.val < 256
  · rw [dif_pos h, cat3_apply_0 _ _ _ _ _ _ h]
    exact rep8_apply v0 _ _ _ (by decide) _ _ _
  · rw [dif_neg h]
    by_cases h2 : k.val < 320
    · rw [dif_pos h2, cat3_apply_1 _ _ _ _ _ _ (by omega) h2]
      exact rep8_apply v30 _ _ _ (by decide) _ _ _
    · rw [dif_neg h2, cat3_apply_2 _ _ _ _ _ _ (by omega)]
      exact pay4_apply v34 v37 _ _ _

/-- One rectified layer as the kernel spells it, at (r, c): the rectified affine map of row r. -/
theorem layer_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    maximumf
        (addf (matmul d none (truncf .bf16 X hlt) (truncf .bf16 W hlt) (constant ⟨2, ![R, C]⟩ .f32 0x00000000#32))
          (broadcastTo ⟨2, ![R, C]⟩ (shapeCast ⟨2, ![1, C]⟩ b hsc) hbc))
        (broadcast ⟨2, ![R, C]⟩ (Scalar.ofBits (F := Ideal) .f32 0x00000000#32)) (ix2 r c)
      = relu (affine W b (fun k => X (ix2 r k))) c := by
  refine (kernel_relu_apply _ _).trans ?_
  rw [kernel_affine_apply d h1 h2 h3 h4 h5 h6 hlt hsc hbc X W b r c]
  rfl

/-- The three rectified layers over the stacked input, at (r, c), from the input's row r. -/
theorem pay5_apply (v0 : Vec Ideal S400x256 .f32) (v30 : FVec Ideal S400x64 .f32) (v34 v37 : FVec Ideal S400x24 .f32)
    (v48 : Vec Ideal S323x256 .f32) (v52 : Vec Ideal S256 .f32) (v58 : Vec Ideal S256x256 .f32)
    (v62 : Vec Ideal S256 .f32) (v68 : Vec Ideal S256x256 .f32) (v72 : Vec Ideal S256 .f32) (r : Fin 3200) (c : Fin 256) :
    k0_pay5 v0 v30 v34 v37 v48 v52 v58 v62 v68 v72 (ix2 r c)
      = relu (affine v68 v72 (relu (affine v58 v62 (relu (affine v48 v52
          (fun k => decIn v0 v30 v34 v37 (ix2 r k))))))) c := by
  unfold k0_pay5
  refine (layer_apply dot_S3200x256_S256x256_S3200x256_1_0_0_1_n_n rfl rfl rfl rfl rfl rfl _ _ _ _ v68 v72 r c).trans ?_
  refine congrArg (fun f => relu (affine v68 v72 f) c) (funext fun k2 => ?_)
  refine (layer_apply dot_S3200x256_S256x256_S3200x256_1_0_0_1_n_n rfl rfl rfl rfl rfl rfl _ _ _ _ v58 v62 r k2).trans ?_
  refine congrArg (fun f => relu (affine v58 v62 f) k2) (funext fun k1 => ?_)
  exact layer_apply dot_S3200x323_S323x256_S3200x256_1_0_0_1_n_n rfl rfl rfl rfl rfl rfl _ _ _ _ v48 v52 r k1

/-- The value stored to the decoded-features block, at row r and column c: feature c of point r % 8 of node r / 8. -/
theorem dec_block_apply (x0 : Vec Ideal S400x256 .f32) (x1 : Vec Ideal S256x256 .f32) (x2 : Vec Ideal S256 .f32) (x3 : Vec Ideal S256x128 .f32) (x4 : Vec Ideal S128 .f32) (x5 : Vec Ideal S128x64 .f32) (x6 : Vec Ideal S64 .f32) (x7 : Vec Ideal S64x24 .f32) (x8 : Vec Ideal S24 .f32) (x9 : Vec Ideal S323x256 .f32) (x10 : Vec Ideal S256 .f32) (x11 : Vec Ideal S256x256 .f32) (x12 : Vec Ideal S256 .f32) (x13 : Vec Ideal S256x256 .f32) (x14 : Vec Ideal S256 .f32) (r : Fin 3200) (c : Fin 256) :
    k0_pay5 x0 (k0_pay1 x0 x1 x2 x3 x4 x5 x6) (k0_pay2 x0 x1 x2 x3 x4 x5 x6 x7) (k0_pay3 x8) x9 x10 x11 x12 x13 x14 (ix2 r c)
      = decRow (wts x1 x2 x3 x4 x5 x6 x7 x8 x9 x10 x11 x12 x13 x14) (brow x0 ⟨r.val / 8, by omega⟩)
          ⟨r.val % 8, by omega⟩ c := by
  rw [pay5_apply]
  unfold decRow
  refine congrArg (fun f => relu (affine x13 x14 (relu (affine x11 x12 (relu (affine x9 x10 f))))) c) (funext fun k => ?_)
  rw [decIn_apply]
  unfold pointIn
  by_cases h : k.val < 256
  · rw [dif_pos h, dif_pos h]
  · rw [dif_neg h, dif_neg h]
    by_cases h2 : k.val < 320
    · rw [dif_pos h2, dif_pos h2]
      exact feats_block_apply x0 x1 x2 x3 x4 x5 x6 x7 x8 x9 x10 x11 x12 x13 x14 _ _
    · rw [dif_neg h2, dif_neg h2]
      exact rel24_block_apply x0 x1 x2 x3 x4 x5 x6 x7 x8 x9 x10 x11 x12 x13 x14 _ _

end Cert.KernelIdeal.KVal

end
-- ==== Proof.KRun.lean ====
/-
  The kernel's run, read as values.

  The grid has 125 points; point t stages rows 400 t … 400 t + 399 of the input array and the fourteen weight arrays
  whole, and writes back rows 3200 t … 3200 t + 3199 of the two result arrays. A staged weight block is the array
  itself (`iblk_1` … `iblk_14`); row p of the staged input block is row 400 t + p of the input array (`iblk_0_apply`).
  Row r of what point t writes back belongs to point r % 8 of block node r / 8, that is to node (3200 t + r) / 8 and
  point (3200 t + r) % 8: so every write-back is a block of the specification's whole-array functions (`flushed15_eq`,
  `flushed16_eq`), the 125 blocks cover both arrays (`cover15`, `cover16`), and the arrays end at those functions. The
  host operations after the region build the points' node numbers from nothing but constants (`tail_v3`).
-/
import proofs.«144889_j38044820308123_1_alg».proof.Proof.Gen.KernelIdeal.Frame
import proofs.«144889_j38044820308123_1_alg».proof.Proof.KVal
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen Cert.Spec Cert.Dense Cert.KernelIdeal.KBlock Cert.KernelIdeal.KVal

variable (m : (ℓ : Loc nD τ sig) → Buf (Elt Ideal) ℓ) (ρ : Dev nD → PrngReg)

/-- The fourteen weight arrays as launched on core c. -/
abbrev W (c : Dev nD) : Weights :=
  ⟨m ((c : Thread nD τ).loc main_arg1), m ((c : Thread nD τ).loc main_arg2), m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8), m ((c : Thread nD τ).loc main_arg9), m ((c : Thread nD τ).loc main_arg10),
   m ((c : Thread nD τ).loc main_arg11), m ((c : Thread nD τ).loc main_arg12), m ((c : Thread nD τ).loc main_arg13), m ((c : Thread nD τ).loc main_arg14)⟩

/-- The input array as launched on core c. -/
abbrev X (c : Dev nD) : FVec Ideal ⟨2, ![50000, 256]⟩ .f32 := m ((c : Thread nD τ).loc main_arg0)

theorem hz2 : (![0, 0] : Fin 2 → Nat) = fun _ => 0 := funext fun a => by fin_cases a <;> rfl
theorem hz1 : (![0] : Fin 1 → Nat) = fun _ => 0 := funext fun a => by fin_cases a <;> rfl

/-- The three moving windows' block indices at point t: (t, 0). -/
theorem idx_t : ∀ t : Fin cfg0.N, win0_0.index t 0 = t.val ∧ win0_0.index t 1 = 0
    ∧ win0_15.index t 0 = t.val ∧ win0_15.index t 1 = 0 ∧ win0_16.index t 0 = t.val ∧ win0_16.index t 1 = 0 :=
  (by decide +kernel : ∀ t : Fin grid0.N, win0_0.index t 0 = t.val ∧ win0_0.index t 1 = 0
    ∧ win0_15.index t 0 = t.val ∧ win0_15.index t 1 = 0 ∧ win0_16.index t 0 = t.val ∧ win0_16.index t 1 = 0)

/-! ## The staged blocks -/

theorem iblk_1 (c : Dev nD) (t : Fin cfg0.N) :
    (iblk m c 1 t : Vec Ideal S256x256 .f32) = m ((c : Thread nD τ).loc main_arg1) := by
  have hi : win0_1.index t 0 = 0 ∧ win0_1.index t 1 = 0 :=
    (by decide +kernel : ∀ t : Fin grid0.N, win0_1.index t 0 = 0 ∧ win0_1.index t 1 = 0) t
  funext x
  unfold iblk
  rw [View.read_apply]
  show (m ((c : Thread nD τ).loc main_arg1) : S256x256.Idx → Elt Ideal .f32) _ = m ((c : Thread nD τ).loc main_arg1) x
  congr 1
  funext a
  apply Fin.ext
  match a with
  | ⟨0, _⟩ => show win0_1.index t 0 * 256 + 1 * (x 0).val = (x 0).val; rw [hi.1]; omega
  | ⟨1, _⟩ => show win0_1.index t 1 * 256 + 1 * (x 1).val = (x 1).val; rw [hi.2]; omega

theorem iblk_2 (c : Dev nD) (t : Fin cfg0.N) :
    (iblk m c 2 t : Vec Ideal S256 .f32) = m ((c : Thread nD τ).loc main_arg2) := by
  have hi : win0_2.index t 0 = 0 :=
    (by decide +kernel : ∀ t : Fin grid0.N, win0_2.index t 0 = 0) t
  funext x
  unfold iblk
  rw [View.read_apply]
  show (m ((c : Thread nD τ).loc main_arg2) : S256.Idx → Elt Ideal .f32) _ = m ((c : Thread nD τ).loc main_arg2) x
  congr 1
  funext a
  apply Fin.ext
  match a with
  | ⟨0, _⟩ => show win0_2.index t 0 * 256 + 1 * (x 0).val = (x 0).val; rw [hi]; omega

theorem iblk_3 (c : Dev nD) (t : Fin cfg0.N) :
    (iblk m c 3 t : Vec Ideal S256x128 .f32) = m ((c : Thread nD τ).loc main_arg3) := by
  have hi : win0_3.index t 0 = 0 ∧ win0_3.index t 1 = 0 :=
    (by decide +kernel : ∀ t : Fin grid0.N, win0_3.index t 0 = 0 ∧ win0_3.index t 1 = 0) t
  funext x
  unfold iblk
  rw [View.read_apply]
  show (m ((c : Thread nD τ).loc main_arg3) : S256x128.Idx → Elt Ideal .f32) _ = m ((c : Thread nD τ).loc main_arg3) x
  congr 1
  funext a
  apply Fin.ext
  match a with
  | ⟨0, _⟩ => show win0_3.index t 0 * 256 + 1 * (x 0).val = (x 0).val; rw [hi.1]; omega
  | ⟨1, _⟩ => show win0_3.index t 1 * 128 + 1 * (x 1).val = (x 1).val; rw [hi.2]; omega

theorem iblk_4 (c : Dev nD) (t : Fin cfg0.N) :
    (iblk m c 4 t : Vec Ideal S128 .f32) = m ((c : Thread nD τ).loc main_arg4) := by
  have hi : win0_4.index t 0 = 0 :=
    (by decide +kernel : ∀ t : Fin grid0.N, win0_4.index t 0 = 0) t
  funext x
  unfold iblk
  rw [View.read_apply]
  show (m ((c : Thread nD τ).loc main_arg4) : S128.Idx → Elt Ideal .f32) _ = m ((c : Thread nD τ).loc main_arg4) x
  congr 1
  funext a
  apply Fin.ext
  match a with
  | ⟨0, _⟩ => show win0_4.index t 0 * 128 + 1 * (x 0).val = (x 0).val; rw [hi]; omega

theorem iblk_5 (c : Dev nD) (t : Fin cfg0.N) :
    (iblk m c 5 t : Vec Ideal S128x64 .f32) = m ((c : Thread nD τ).loc main_arg5) := by
  have hi : win0_5.index t 0 = 0 ∧ win0_5.index t 1 = 0 :=
    (by decide +kernel : ∀ t : Fin grid0.N, win0_5.index t 0 = 0 ∧ win0_5.index t 1 = 0) t
  funext x
  unfold iblk
  rw [View.read_apply]
  show (m ((c : Thread nD τ).loc main_arg5) : S128x64.Idx → Elt Ideal .f32) _ = m ((c : Thread nD τ).loc main_arg5) x
  congr 1
  funext a
  apply Fin.ext
  match a with
  | ⟨0, _⟩ => show win0_5.index t 0 * 128 + 1 * (x 0).val = (x 0).val; rw [hi.1]; omega
  | ⟨1, _⟩ => show win0_5.index t 1 * 64 + 1 * (x 1).val = (x 1).val; rw [hi.2]; omega

theorem iblk_6 (c : Dev nD) (t : Fin cfg0.N) :
    (iblk m c 6 t : Vec Ideal S64 .f32) = m ((c : Thread nD τ).loc main_arg6) := by
  have hi : win0_6.index t 0 = 0 :=
    (by decide +kernel : ∀ t : Fin grid0.N, win0_6.index t 0 = 0) t
  funext x
  unfold iblk
  rw [View.read_apply]
  show (m ((c : Thread nD τ).loc main_arg6) : S64.Idx → Elt Ideal .f32) _ = m ((c : Thread nD τ).loc main_arg6) x
  congr 1
  funext a
  apply Fin.ext
  match a with
  | ⟨0, _⟩ => show win0_6.index t 0 * 64 + 1 * (x 0).val = (x 0).val; rw [hi]; omega

theorem iblk_7 (c : Dev nD) (t : Fin cfg0.N) :
    (iblk m c 7 t : Vec Ideal S64x24 .f32) = m ((c : Thread nD τ).loc main_arg7) := by
  have hi : win0_7.index t 0 = 0 ∧ win0_7.index t 1 = 0 :=
    (by decide +kernel : ∀ t : Fin grid0.N, win0_7.index t 0 = 0 ∧ win0_7.index t 1 = 0) t
  funext x
  unfold iblk
  rw [View.read_apply]
  show (m ((c : Thread nD τ).loc main_arg7) : S64x24.Idx → Elt Ideal .f32) _ = m ((c : Thread nD τ).loc main_arg7) x
  congr 1
  funext a
  apply Fin.ext
  match a with
  | ⟨0, _⟩ => show win0_7.index t 0 * 64 + 1 * (x 0).val = (x 0).val; rw [hi.1]; omega
  | ⟨1, _⟩ => show win0_7.index t 1 * 24 + 1 * (x 1).val = (x 1).val; rw [hi.2]; omega

theorem iblk_8 (c : Dev nD) (t : Fin cfg0.N) :
    (iblk m c 8 t : Vec Ideal S24 .f32) = m ((c : Thread nD τ).loc main_arg8) := by
  have hi : win0_8.index t 0 = 0 :=
    (by decide +kernel : ∀ t : Fin grid0.N, win0_8.index t 0 = 0) t
  funext x
  unfold iblk
  rw [View.read_apply]
  show (m ((c : Thread nD τ).loc main_arg8) : S24.Idx → Elt Ideal .f32) _ = m ((c : Thread nD τ).loc main_arg8) x
  congr 1
  funext a
  apply Fin.ext
  match a with
  | ⟨0, _⟩ => show win0_8.index t 0 * 24 + 1 * (x 0).val = (x 0).val; rw [hi]; omega

theorem iblk_9 (c : Dev nD) (t : Fin cfg0.N) :
    (iblk m c 9 t : Vec Ideal S323x256 .f32) = m ((c : Thread nD τ).loc main_arg9) := by
  have hi : win0_9.index t 0 = 0 ∧ win0_9.index t 1 = 0 :=
    (by decide +kernel : ∀ t : Fin grid0.N, win0_9.index t 0 = 0 ∧ win0_9.index t 1 = 0) t
  funext x
  unfold iblk
  rw [View.read_apply]
  show (m ((c : Thread nD τ).loc main_arg9) : S323x256.Idx → Elt Ideal .f32) _ = m ((c : Thread nD τ).loc main_arg9) x
  congr 1
  funext a
  apply Fin.ext
  match a with
  | ⟨0, _⟩ => show win0_9.index t 0 * 323 + 1 * (x 0).val = (x 0).val; rw [hi.1]; omega
  | ⟨1, _⟩ => show win0_9.index t 1 * 256 + 1 * (x 1).val = (x 1).val; rw [hi.2]; omega

theorem iblk_10 (c : Dev nD) (t : Fin cfg0.N) :
    (iblk m c 10 t : Vec Ideal S256 .f32) = m ((c : Thread nD τ).loc main_arg10) := by
  have hi : win0_10.index t 0 = 0 :=
    (by decide +kernel : ∀ t : Fin grid0.N, win0_10.index t 0 = 0) t
  funext x
  unfold iblk
  rw [View.read_apply]
  show (m ((c : Thread nD τ).loc main_arg10) : S256.Idx → Elt Ideal .f32) _ = m ((c : Thread nD τ).loc main_arg10) x
  congr 1
  funext a
  apply Fin.ext
  match a with
  | ⟨0, _⟩ => show win0_10.index t 0 * 256 + 1 * (x 0).val = (x 0).val; rw [hi]; omega

theorem iblk_11 (c : Dev nD) (t : Fin cfg0.N) :
    (iblk m c 11 t : Vec Ideal S256x256 .f32) = m ((c : Thread nD τ).loc main_arg11) := by
  have hi : win0_11.index t 0 = 0 ∧ win0_11.index t 1 = 0 :=
    (by decide +kernel : ∀ t : Fin grid0.N, win0_11.index t 0 = 0 ∧ win0_11.index t 1 = 0) t
  funext x
  unfold iblk
  rw [View.read_apply]
  show (m ((c : Thread nD τ).loc main_arg11) : S256x256.Idx → Elt Ideal .f32) _ = m ((c : Thread nD τ).loc main_arg11) x
  congr 1
  funext a
  apply Fin.ext
  match a with
  | ⟨0, _⟩ => show win0_11.index t 0 * 256 + 1 * (x 0).val = (x 0).val; rw [hi.1]; omega
  | ⟨1, _⟩ => show win0_11.index t 1 * 256 + 1 * (x 1).val = (x 1).val; rw [hi.2]; omega

theorem iblk_12 (c : Dev nD) (t : Fin cfg0.N) :
    (iblk m c 12 t : Vec Ideal S256 .f32) = m ((c : Thread nD τ).loc main_arg12) := by
  have hi : win0_12.index t 0 = 0 :=
    (by decide +kernel : ∀ t : Fin grid0.N, win0_12.index t 0 = 0) t
  funext x
  unfold iblk
  rw [View.read_apply]
  show (m ((c : Thread nD τ).loc main_arg12) : S256.Idx → Elt Ideal .f32) _ = m ((c : Thread nD τ).loc main_arg12) x
  congr 1
  funext a
  apply Fin.ext
  match a with
  | ⟨0, _⟩ => show win0_12.index t 0 * 256 + 1 * (x 0).val = (x 0).val; rw [hi]; omega

theorem iblk_13 (c : Dev nD) (t : Fin cfg0.N) :
    (iblk m c 13 t : Vec Ideal S256x256 .f32) = m ((c : Thread nD τ).loc main_arg13) := by
  have hi : win0_13.index t 0 = 0 ∧ win0_13.index t 1 = 0 :=
    (by decide +kernel : ∀ t : Fin grid0.N, win0_13.index t 0 = 0 ∧ win0_13.index t 1 = 0) t
  funext x
  unfold iblk
  rw [View.read_apply]
  show (m ((c : Thread nD τ).loc main_arg13) : S256x256.Idx → Elt Ideal .f32) _ = m ((c : Thread nD τ).loc main_arg13) x
  congr 1
  funext a
  apply Fin.ext
  match a with
  | ⟨0, _⟩ => show win0_13.index t 0 * 256 + 1 * (x 0).val = (x 0).val; rw [hi.1]; omega
  | ⟨1, _⟩ => show win0_13.index t 1 * 256 + 1 * (x 1).val = (x 1).val; rw [hi.2]; omega

theorem iblk_14 (c : Dev nD) (t : Fin cfg0.N) :
    (iblk m c 14 t : Vec Ideal S256 .f32) = m ((c : Thread nD τ).loc main_arg14) := by
  have hi : win0_14.index t 0 = 0 :=
    (by decide +kernel : ∀ t : Fin grid0.N, win0_14.index t 0 = 0) t
  funext x
  unfold iblk
  rw [View.read_apply]
  show (m ((c : Thread nD τ).loc main_arg14) : S256.Idx → Elt Ideal .f32) _ = m ((c : Thread nD τ).loc main_arg14) x
  congr 1
  funext a
  apply Fin.ext
  match a with
  | ⟨0, _⟩ => show win0_14.index t 0 * 256 + 1 * (x 0).val = (x 0).val; rw [hi]; omega

/-- Row p of the input block staged at point t is row 400 t + p of the input array. -/
theorem iblk_0_apply (c : Dev nD) (t : Fin cfg0.N) (p : Fin 400) (k : Fin 256) (n : Fin 50000) (hn : n.val = 400 * t.val + p.val) :
    (iblk m c 0 t : Vec Ideal S400x256 .f32) (ix2 p k) = X m c (ix2 n k) := by
  obtain ⟨h0, h1, -⟩ := idx_t t
  unfold iblk
  rw [View.read_apply]
  show (m ((c : Thread nD τ).loc main_arg0) : S50000x256.Idx → Elt Ideal .f32) _ = m ((c : Thread nD τ).loc main_arg0) (ix2 n k)
  congr 1
  funext a
  apply Fin.ext
  match a with
  | ⟨0, _⟩ => show win0_0.index t 0 * 400 + 1 * p.val = n.val; rw [h0, hn]; omega
  | ⟨1, _⟩ => show win0_0.index t 1 * 256 + 1 * k.val = k.val; rw [h1]; omega

/-! ## The specification read at an index -/

/-- Row (i 0) of the coordinates is entry e of node n, for n = (i 0) / 8 and e = 3 ((i 0) % 8) + (i 1). -/
theorem Grel_apply (P : Weights) (Y : FVec Ideal ⟨2, ![50000, 256]⟩ .f32) (i : (⟨2, ![400000, 3]⟩ : Shape).Idx)
    (n : Fin 50000) (e : Fin 24) (hn : n.val = (i 0).val / 8) (he : e.val = 3 * ((i 0).val % 8) + (i 1).val) :
    Grel P Y i = relRow P (rowOf Y n) e := by
  unfold Grel
  have h1 : (⟨(i 0).val / 8, by have := idx2_lt0 i; omega⟩ : Fin 50000) = n := Fin.ext hn.symm
  have h2 : (⟨3 * ((i 0).val % 8) + (i 1).val, by have := idx2_lt1 i; omega⟩ : Fin 24) = e := Fin.ext he.symm
  rw [h1, h2]

/-- Row (i 0) of the decoded features is feature (i 1) of point q of node n, for n = (i 0) / 8 and q = (i 0) % 8. -/
theorem Gdec_apply (P : Weights) (Y : FVec Ideal ⟨2, ![50000, 256]⟩ .f32) (i : (⟨2, ![400000, 256]⟩ : Shape).Idx)
    (n : Fin 50000) (q : Fin 8) (k : Fin 256) (hn : n.val = (i 0).val / 8) (hq : q.val = (i 0).val % 8)
    (hk : k.val = (i 1).val) :
    Gdec P Y i = decRow P (rowOf Y n) q k := by
  unfold Gdec
  have h1 : (⟨(i 0).val / 8, by have := idx2_lt0 i; omega⟩ : Fin 50000) = n := Fin.ext hn.symm
  have h2 : (⟨(i 0).val % 8, by omega⟩ : Fin 8) = q := Fin.ext hq.symm
  have h3 : (⟨(i 1).val, idx2_lt1 i⟩ : Fin 256) = k := Fin.ext hk.symm
  rw [h1, h2, h3]

/-! ## What each point writes back -/

/-- Point t writes back block t of the coordinates: rows 3200 t … 3200 t + 3199 of `Grel`. -/
theorem flushed15_eq (c : Dev nD) (t : Fin cfg0.N) :
    (dats m 0 c).flushed 15 t = ((cfg0.win 15).blk t).view.read (Elt Ideal) (Grel (W m c) (X m c)) := by
  show (cfg0.win 15).cut (grid0.coords t) ((dats m 0 c).after 15 t) = _
  rw [after0_15]
  unfold out0_15
  rw [View.canon_unit_zero hz2]
  simp only [View.ld_unit_zero (S := S400x256) hz2, View.ld_unit_zero (S := S256x256) hz2, View.ld_unit_zero (S := S256x128) hz2, View.ld_unit_zero (S := S128x64) hz2, View.ld_unit_zero (S := S64x24) hz2, View.ld_unit_zero (S := S323x256) hz2, View.ld_unit_zero (S := S256) hz1, View.ld_unit_zero (S := S128) hz1, View.ld_unit_zero (S := S64) hz1, View.ld_unit_zero (S := S24) hz1]
  rw [iblk_1, iblk_2, iblk_3, iblk_4, iblk_5, iblk_6, iblk_7, iblk_8]
  funext j
  obtain ⟨r, cc, rfl⟩ : ∃ (r : Fin 3200) (cc : Fin 3), j = ix2 r cc := ⟨j 0, j 1, eq_ix2 j⟩
  obtain ⟨-, -, h0, h1, -⟩ := idx_t t
  have ht : t.val < 125 := lt_of_lt_of_eq t.isLt N_0
  have e0 : ((((cfg0.win 15).blk t).view.emb (ix2 r cc)) 0).val = 3200 * t.val + r.val := by
    show win0_15.index t 0 * 3200 + 1 * r.val = _
    rw [h0]; omega
  have e1 : ((((cfg0.win 15).blk t).view.emb (ix2 r cc)) 1).val = cc.val := by
    show win0_15.index t 1 * 3 + 1 * cc.val = _
    rw [h1]; omega
  show k0_pay6 (k0_pay2 (iblk m c 0 t) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (k0_pay3 (m ((c : Thread nD τ).loc main_arg8))) (ix2 r cc)
    = Grel (W m c) (X m c) (((cfg0.win 15).blk t).view.emb (ix2 r cc))
  rw [rel_block_apply (iblk m c 0 t) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) r cc]
  rw [Grel_apply (W m c) (X m c) _ ⟨400 * t.val + r.val / 8, by omega⟩ ⟨3 * (r.val % 8) + cc.val, by omega⟩
    (by rw [e0]; show 400 * t.val + r.val / 8 = (3200 * t.val + r.val) / 8; omega)
    (by rw [e0, e1]; show 3 * (r.val % 8) + cc.val = 3 * ((3200 * t.val + r.val) % 8) + cc.val; omega)]
  refine congrArg (fun x => relRow (W m c) x _) ?_
  funext k
  exact iblk_0_apply m c t ⟨r.val / 8, by omega⟩ k ⟨400 * t.val + r.val / 8, by omega⟩ rfl

/-- Point t writes back block t of the decoded features: rows 3200 t … 3200 t + 3199 of `Gdec`. -/
theorem flushed16_eq (c : Dev nD) (t : Fin cfg0.N) :
    (dats m 0 c).flushed 16 t = ((cfg0.win 16).blk t).view.read (Elt Ideal) (Gdec (W m c) (X m c)) := by
  show (cfg0.win 16).cut (grid0.coords t) ((dats m 0 c).after 16 t) = _
  rw [after0_16]
  unfold out0_16
  rw [View.canon_unit_zero hz2]
  simp only [View.ld_unit_zero (S := S400x256) hz2, View.ld_unit_zero (S := S256x256) hz2, View.ld_unit_zero (S := S256x128) hz2, View.ld_unit_zero (S := S128x64) hz2, View.ld_unit_zero (S := S64x24) hz2, View.ld_unit_zero (S := S323x256) hz2, View.ld_unit_zero (S := S256) hz1, View.ld_unit_zero (S := S128) hz1, View.ld_unit_zero (S := S64) hz1, View.ld_unit_zero (S := S24) hz1]
  rw [iblk_1, iblk_2, iblk_3, iblk_4, iblk_5, iblk_6, iblk_7, iblk_8, iblk_9, iblk_10, iblk_11, iblk_12, iblk_13, iblk_14]
  funext j
  obtain ⟨r, cc, rfl⟩ : ∃ (r : Fin 3200) (cc : Fin 256), j = ix2 r cc := ⟨j 0, j 1, eq_ix2 j⟩
  obtain ⟨-, -, -, -, h0, h1⟩ := idx_t t
  have ht : t.val < 125 := lt_of_lt_of_eq t.isLt N_0
  have e0 : ((((cfg0.win 16).blk t).view.emb (ix2 r cc)) 0).val = 3200 * t.val + r.val := by
    show win0_16.index t 0 * 3200 + 1 * r.val = _
    rw [h0]; omega
  have e1 : ((((cfg0.win 16).blk t).view.emb (ix2 r cc)) 1).val = cc.val := by
    show win0_16.index t 1 * 256 + 1 * cc.val = _
    rw [h1]; omega
  show k0_pay5 (iblk m c 0 t) (k0_pay1 (iblk m c 0 t) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (k0_pay2 (iblk m c 0 t) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
      (k0_pay3 (m ((c : Thread nD τ).loc main_arg8))) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix2 r cc)
    = Gdec (W m c) (X m c) (((cfg0.win 16).blk t).view.emb (ix2 r cc))
  rw [dec_block_apply (iblk m c 0 t) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) r cc]
  rw [Gdec_apply (W m c) (X m c) _ ⟨400 * t.val + r.val / 8, by omega⟩ ⟨r.val % 8, by omega⟩ cc
    (by rw [e0]; show 400 * t.val + r.val / 8 = (3200 * t.val + r.val) / 8; omega)
    (by rw [e0]; show r.val % 8 = (3200 * t.val + r.val) % 8; omega)
    (by rw [e1])]
  refine congrArg (fun x => decRow (W m c) x _ _) ?_
  funext k
  exact iblk_0_apply m c t ⟨r.val / 8, by omega⟩ k ⟨400 * t.val + r.val / 8, by omega⟩ rfl

/-! ## The 125 blocks cover both arrays -/

theorem mem_blk15 (t : Fin cfg0.N) (i : S400000x3.Idx) :
    i ∈ ((cfg0.win 15).blk t).view.set ↔ ∀ a : Fin 2, win0_15.index t a * S3200x3.size a ≤ (i a).val
      ∧ (i a).val < win0_15.index t a * S3200x3.size a + S3200x3.size a := by
  show i ∈ ((View.whole main_v0_0).slice (win0_15.rect t)).set ↔ _
  rw [View.set_slice_whole, Rect.mem_set_unit]
  exact Iff.rfl

theorem mem_blk16 (t : Fin cfg0.N) (i : S400000x256.Idx) :
    i ∈ ((cfg0.win 16).blk t).view.set ↔ ∀ a : Fin 2, win0_16.index t a * S3200x256.size a ≤ (i a).val
      ∧ (i a).val < win0_16.index t a * S3200x256.size a + S3200x256.size a := by
  show i ∈ ((View.whole main_v0_1).slice (win0_16.rect t)).set ↔ _
  rw [View.set_slice_whole, Rect.mem_set_unit]
  exact Iff.rfl

/-- Row i 0 of the coordinates lies in the block of point (i 0) / 3200. -/
theorem cover15 (i : S400000x3.Idx) :
    ∃ t : Fin cfg0.N, (cfg0.win 15).flush t = true ∧ i ∈ ((cfg0.win 15).blk t).view.set := by
  have hi0 : (i 0).val < 400000 := idx2_lt0 i
  have hi1 : (i 1).val < 3 := idx2_lt1 i
  have hlt : (i 0).val / 3200 < cfg0.N := by rw [show cfg0.N = 125 from N_0]; omega
  obtain ⟨-, -, h0, h1, -⟩ := idx_t ⟨(i 0).val / 3200, hlt⟩
  refine ⟨⟨(i 0).val / 3200, hlt⟩, flush0_15 _, ?_⟩
  rw [mem_blk15]
  intro a
  match a with
  | ⟨0, _⟩ =>
    show win0_15.index ⟨(i 0).val / 3200, hlt⟩ 0 * 3200 ≤ (i 0).val
      ∧ (i 0).val < win0_15.index ⟨(i 0).val / 3200, hlt⟩ 0 * 3200 + 3200
    rw [h0]; show (i 0).val / 3200 * 3200 ≤ (i 0).val ∧ (i 0).val < (i 0).val / 3200 * 3200 + 3200; omega
  | ⟨1, _⟩ =>
    show win0_15.index ⟨(i 0).val / 3200, hlt⟩ 1 * 3 ≤ (i 1).val
      ∧ (i 1).val < win0_15.index ⟨(i 0).val / 3200, hlt⟩ 1 * 3 + 3
    rw [h1]; omega

/-- Row i 0 of the decoded features lies in the block of point (i 0) / 3200. -/
theorem cover16 (i : S400000x256.Idx) :
    ∃ t : Fin cfg0.N, (cfg0.win 16).flush t = true ∧ i ∈ ((cfg0.win 16).blk t).view.set := by
  have hi0 : (i 0).val < 400000 := idx2_lt0 i
  have hi1 : (i 1).val < 256 := idx2_lt1 i
  have hlt : (i 0).val / 3200 < cfg0.N := by rw [show cfg0.N = 125 from N_0]; omega
  obtain ⟨-, -, -, -, h0, h1⟩ := idx_t ⟨(i 0).val / 3200, hlt⟩
  refine ⟨⟨(i 0).val / 3200, hlt⟩, flush0_16 _, ?_⟩
  rw [mem_blk16]
  intro a
  match a with
  | ⟨0, _⟩ =>
    show win0_16.index ⟨(i 0).val / 3200, hlt⟩ 0 * 3200 ≤ (i 0).val
      ∧ (i 0).val < win0_16.index ⟨(i 0).val / 3200, hlt⟩ 0 * 3200 + 3200
    rw [h0]; show (i 0).val / 3200 * 3200 ≤ (i 0).val ∧ (i 0).val < (i 0).val / 3200 * 3200 + 3200; omega
  | ⟨1, _⟩ =>
    show win0_16.index ⟨(i 0).val / 3200, hlt⟩ 1 * 256 ≤ (i 1).val
      ∧ (i 1).val < win0_16.index ⟨(i 0).val / 3200, hlt⟩ 1 * 256 + 256
    rw [h1]; omega

/-- The coordinates array after the run. -/
theorem final15 (c : Dev nD) : (dats m 0 c).arrAt 15 cfg0.N = Grel (W m c) (X m c) :=
  (dats m 0 c).arrAt_eq_of_cover 15 (Grel (W m c) (X m c)) (fun t _ => flushed15_eq m c t) cover15

/-- The decoded-features array after the run. -/
theorem final16 (c : Dev nD) : (dats m 0 c).arrAt 16 cfg0.N = Gdec (W m c) (X m c) :=
  (dats m 0 c).arrAt_eq_of_cover 16 (Gdec (W m c) (X m c)) (fun t _ => flushed16_eq m c t) cover16

/-! ## The host operations after the region -/

/-- The node number of each point: the row numbers 0 … 49999 repeated 8 times along a second axis, laid out flat. -/
abbrev nodeOf : IVec S400000 32 :=
  shapeCast S400000 (broadcastInDim S50000x8 ![0] Cert.KernelIdeal.Gen.bcast_S50000_S50000x8_0 (iotaInDim S50000 32 0))
    Cert.KernelIdeal.Gen.shapeCasts_S50000x8_S400000

/-- The third result is built from constants alone. -/
theorem tail_v3 (c : Dev nD) :
    Pipeline.afterTail₀ cfgs (dats m) 0 (V0 m) [hostOps1] c main_v3 = nodeOf := by
  unfold Pipeline.afterTail₀
  show StableHlo.after hostOps1 _ (Proc.devRef .tc main_v3) = _
  after_results
  rfl

/-! ## The run -/

/-- Every weakly fair execution of the kernel's program ends with the coordinates at `Grel`, the decoded features at
    `Gdec`, the node numbers at `nodeOf`, and the fifteen arguments unchanged. -/
theorem run : θ_run defs (onTc (τ := τ) (main (F := Ideal))) ⟨m, fun _ => 0, ρ⟩ fun r => ∀ c : Dev nD,
      r.2.mem ((c : Thread nD τ).loc main_v0_0) = Grel (W m c) (X m c)
      ∧ r.2.mem ((c : Thread nD τ).loc main_v0_1) = Gdec (W m c) (X m c)
      ∧ r.2.mem ((c : Thread nD τ).loc main_v3) = nodeOf
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨((h c).1 15).trans (final15 m c), ((h c).1 16).trans (final16 m c),
      ((h c).2 main_v3 (by decide)).trans (tail_v3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c)))⟩)
    (run_main m ρ)

end Cert.KernelIdeal.KRun

end
-- ==== Proof.RefTerm.lean ====
/-
  The reference program's host operations as pure functions of array contents, stage by stage, for any float
  instance: three rectified layers on the 50000 node rows (`h0`, `h1`, `feats`), the linear head (`rel24`) and its
  re-layout as 400000 rows of three (`relOut`); the node number of each of the 400000 points (`cluster`: point j
  belongs to node j / 8, produced as the row numbers 0 … 49999 repeated along a second axis of extent 8 and laid out
  flat); a table look-up by row number that replaces out-of-range rows by a fill value (`takeIdx`, `takeMask`,
  `take64`, `take256`); the 323 inputs of each point side by side (`decIn`); and three rectified layers on the
  400000 point rows (`p0`, `p1`, `p2`). `outRel`, `outDec` compose them into the program's first two results.
-/
import proofs.«144889_j38044820308123_1_alg».proof.Proof.Gen.ReferenceIdeal

noncomputable section

namespace Cert.ReferenceIdeal.RefTerm

open Idealize.ShloMosaic Cert.ReferenceIdeal Cert.ReferenceIdeal.Facts₀

variable {F : FTy → Type} [FloatOps F]

/-- Layer one on the node rows: rectified (x · Wg0 + bg0). -/
def h0 (a0 : FVec F S50000x256 .f32) (a1 : FVec F S256x256 .f32) (a2 : FVec F S256 .f32) : FVec F S50000x256 .f32 :=
  maximumf (addf (Host.dotGeneral dot_S50000x256_S256x256_S50000x256_1_0_0_1_n_n none a0 a1)
      (broadcastInDim S50000x256 ![0, 1] bcast_S1x256_S50000x256_0_1 (broadcastInDim S1x256 ![1] bcast_S256_S1x256_1 a2)))
    (broadcastInDim S50000x256 ![] bcast_S_S50000x256 (constant S_ .f32 0x00000000#32))

/-- Layer two on the node rows. -/
def h1 (v : FVec F S50000x256 .f32) (a3 : FVec F S256x128 .f32) (a4 : FVec F S128 .f32) : FVec F S50000x128 .f32 :=
  maximumf (addf (Host.dotGeneral dot_S50000x256_S256x128_S50000x128_1_0_0_1_n_n none v a3)
      (broadcastInDim S50000x128 ![0, 1] bcast_S1x128_S50000x128_0_1 (broadcastInDim S1x128 ![1] bcast_S128_S1x128_1 a4)))
    (broadcastInDim S50000x128 ![] bcast_S_S50000x128 (constant S_ .f32 0x00000000#32))

/-- Layer three on the node rows: the 64 global features of each node. -/
def feats (v : FVec F S50000x128 .f32) (a5 : FVec F S128x64 .f32) (a6 : FVec F S64 .f32) : FVec F S50000x64 .f32 :=
  maximumf (addf (Host.dotGeneral dot_S50000x128_S128x64_S50000x64_1_0_0_1_n_n none v a5)
      (broadcastInDim S50000x64 ![0, 1] bcast_S1x64_S50000x64_0_1 (broadcastInDim S1x64 ![1] bcast_S64_S1x64_1 a6)))
    (broadcastInDim S50000x64 ![] bcast_S_S50000x64 (constant S_ .f32 0x00000000#32))

/-- The linear head: 24 relative coordinates per node. -/
def rel24 (v : FVec F S50000x64 .f32) (a7 : FVec F S64x24 .f32) (a8 : FVec F S24 .f32) : FVec F S50000x24 .f32 :=
  addf (Host.dotGeneral dot_S50000x64_S64x24_S50000x24_1_0_0_1_n_n none v a7)
    (broadcastInDim S50000x24 ![0, 1] bcast_S1x24_S50000x24_0_1 (broadcastInDim S1x24 ![1] bcast_S24_S1x24_1 a8))

/-- The same numbers as 400000 rows of three. -/
def relOut (v : FVec F S50000x24 .f32) : FVec F S400000x3 .f32 := shapeCast S400000x3 v shapeCasts_S50000x24_S400000x3

/-- The node number of each point. -/
def cluster : IVec S400000 32 :=
  shapeCast S400000 (broadcastInDim S50000x8 ![0] bcast_S50000_S50000x8_0 (iotaInDim S50000 32 0)) shapeCasts_S50000x8_S400000

/-- Row numbers wrapped (a negative one counts from the end) and laid out as a column. -/
def takeIdx (idx : IVec S400000 32) : IVec S400000x1 32 :=
  broadcastInDim S400000x1 ![0] bcast_S400000_S400000x1_0
    (select (cmpi .slt idx (broadcastInDim S400000 ![] bcast_S_S400000 (constantI S_ 32 0#32)))
      (addi idx (broadcastInDim S400000 ![] bcast_S_S400000 (constantI S_ 32 50000#32))) idx)

/-- The bit "this wrapped row number lies in [0, 49999]", per row number. -/
def takeMask (col : IVec S400000x1 32) : IVec S400000 1 :=
  Host.reduce IntOp.andi
    (andi (cmpi .sge col (broadcastInDim S400000x1 ![] bcast_S_S400000x1 (constantI S_ 32 0#32)))
      (cmpi .sle col (broadcastInDim S400000x1 ![0, 1] bcast_S1x1_S400000x1_0_1
        (broadcastInDim S1x1 ![1] bcast_S1_S1x1_1 (constantI S1 32 49999#32)))))
    (constantI S_ 1 1#1) reducesTo_S400000x1_S400000_d1 h_S_

/-- Rows of the [50000, 64] feature table at the given row numbers, a fill value where a number is out of range. -/
def take64 (x : FVec F S50000x64 .f32) (idx : IVec S400000 32) : FVec F S400000x64 .f32 :=
  select (broadcastInDim S400000x64 ![0] bcast_S400000_S400000x64_0 (takeMask (takeIdx idx)))
    (Host.gather gather_S50000x64_S400000x1_S400000x64_1_0_n_n_0_1_164 x (takeIdx idx))
    (broadcastInDim S400000x64 ![] bcast_S_S400000x64 (constant S_ .f32 0x7FC00000#32))

/-- Rows of the [50000, 256] input table at the given row numbers, likewise. -/
def take256 (x : FVec F S50000x256 .f32) (idx : IVec S400000 32) : FVec F S400000x256 .f32 :=
  select (broadcastInDim S400000x256 ![0] bcast_S400000_S400000x256_0 (takeMask (takeIdx idx)))
    (Host.gather gather_S50000x256_S400000x1_S400000x256_1_0_n_n_0_1_1256 x (takeIdx idx))
    (broadcastInDim S400000x256 ![] bcast_S_S400000x256 (constant S_ .f32 0x7FC00000#32))

/-- Each point's 323 inputs: its node's 256 inputs, its node's 64 features, its 3 coordinates. -/
def decIn (t256 : FVec F S400000x256 .f32) (t64 : FVec F S400000x64 .f32) (r : FVec F S400000x3 .f32) :
    FVec F S400000x323 .f32 :=
  concatenate S400000x323 1 [⟨S400000x256, t256⟩, ⟨S400000x64, t64⟩, ⟨S400000x3, r⟩]
    concatenates_S400000x256_S400000x64_S400000x3_S400000x323_d1

/-- Layer one on the point rows. -/
def p0 (v : FVec F S400000x323 .f32) (a9 : FVec F S323x256 .f32) (a10 : FVec F S256 .f32) : FVec F S400000x256 .f32 :=
  maximumf (addf (Host.dotGeneral dot_S400000x323_S323x256_S400000x256_1_0_0_1_n_n none v a9)
      (broadcastInDim S400000x256 ![0, 1] bcast_S1x256_S400000x256_0_1 (broadcastInDim S1x256 ![1] bcast_S256_S1x256_1 a10)))
    (broadcastInDim S400000x256 ![] bcast_S_S400000x256 (constant S_ .f32 0x00000000#32))

/-- Layers two and three on the point rows (one shape: [400000, 256] through a [256, 256] weight). -/
def p12 (v : FVec F S400000x256 .f32) (w : FVec F S256x256 .f32) (b : FVec F S256 .f32) : FVec F S400000x256 .f32 :=
  maximumf (addf (Host.dotGeneral dot_S400000x256_S256x256_S400000x256_1_0_0_1_n_n none v w)
      (broadcastInDim S400000x256 ![0, 1] bcast_S1x256_S400000x256_0_1 (broadcastInDim S1x256 ![1] bcast_S256_S1x256_1 b)))
    (broadcastInDim S400000x256 ![] bcast_S_S400000x256 (constant S_ .f32 0x00000000#32))

/-- The 64 global features of every node, from the arguments. -/
def featsOf (a0 : FVec F S50000x256 .f32) (a1 : FVec F S256x256 .f32) (a2 : FVec F S256 .f32) (a3 : FVec F S256x128 .f32)
    (a4 : FVec F S128 .f32) (a5 : FVec F S128x64 .f32) (a6 : FVec F S64 .f32) : FVec F S50000x64 .f32 :=
  feats (h1 (h0 a0 a1 a2) a3 a4) a5 a6

/-- The program's first result. -/
def outRel (a0 : FVec F S50000x256 .f32) (a1 : FVec F S256x256 .f32) (a2 : FVec F S256 .f32) (a3 : FVec F S256x128 .f32)
    (a4 : FVec F S128 .f32) (a5 : FVec F S128x64 .f32) (a6 : FVec F S64 .f32) (a7 : FVec F S64x24 .f32)
    (a8 : FVec F S24 .f32) : FVec F S400000x3 .f32 :=
  relOut (rel24 (featsOf a0 a1 a2 a3 a4 a5 a6) a7 a8)

/-- The program's second result. -/
def outDec (a0 : FVec F S50000x256 .f32) (a1 : FVec F S256x256 .f32) (a2 : FVec F S256 .f32) (a3 : FVec F S256x128 .f32)
    (a4 : FVec F S128 .f32) (a5 : FVec F S128x64 .f32) (a6 : FVec F S64 .f32) (a7 : FVec F S64x24 .f32)
    (a8 : FVec F S24 .f32) (a9 : FVec F S323x256 .f32) (a10 : FVec F S256 .f32) (a11 : FVec F S256x256 .f32)
    (a12 : FVec F S256 .f32) (a13 : FVec F S256x256 .f32) (a14 : FVec F S256 .f32) : FVec F S400000x256 .f32 :=
  p12 (p12 (p0 (decIn (take256 a0 cluster) (take64 (featsOf a0 a1 a2 a3 a4 a5 a6) cluster)
      (outRel a0 a1 a2 a3 a4 a5 a6 a7 a8)) a9 a10) a11 a12) a13 a14

end Cert.ReferenceIdeal.RefTerm

end
-- ==== Proof.LibTypedRef.lean ====
/-
  Typed references: the transport of contents along a reference's type is the identity.

  A host operation inlined from an outlined function names its buffers by references that carry the tensor type, and
  reads and writes their contents through a transport along the equation "the buffer's type is that type". The three
  facts below remove the transports as equations (by taking the reference apart, not by unfolding a transport), so that
  no proof has to see through one by definitional unfolding — which, around a reduction over a million elements, neither
  the elaborator nor the kernel survives.
-/
import Idealize.ShloMosaic.Lib.StableHlo

namespace Cert.TypedRef

open Idealize.ShloMosaic Idealize.ShloMosaic.StableHlo

variable {sig : RefSig} {Val : EltTy → Type} {T : BufTy}

/-- Written then read back through the same reference: the value. -/
theorem ofBuf_toBuf (x : TRef sig T) (v : T.Contents Val) : x.ofBuf (x.toBuf v) = v := by
  obtain ⟨r, rfl, _, _⟩ := x; rfl

/-- Read through a reference, contents that are a given value: that value. -/
theorem ofBuf_eq_of_heq (x : TRef sig T) (u : x.ref.ty.Contents Val) (v : T.Contents Val) (h : HEq u v) :
    x.ofBuf u = v := by
  obtain ⟨r, rfl, _, _⟩ := x; exact eq_of_heq h

/-- Written through a reference, a value that is given contents: those contents. -/
theorem toBuf_eq_of_heq (x : TRef sig T) (z : T.Contents Val) (w : x.ref.ty.Contents Val) (h : HEq z w) :
    x.toBuf z = w := by
  obtain ⟨r, rfl, _, _⟩ := x; exact eq_of_heq h

end Cert.TypedRef
-- ==== Proof.LibNary3.lean ====
/-
  A host operation over a LITERAL family of three references (a concatenation of three operands): its result with each
  operand's contents at its own reference, so that rewriting the operands' contents can go on under it; and the one-pass
  rewriting of a straight line's results with that rule added.
-/
import Idealize.ShloMosaic.Lib.StableHlo.Run

noncomputable section

namespace Idealize.ShloMosaic.StableHlo

variable {nD : Nat} {τ : Topo} {sig : RefSig} {Val : EltTy → Type}

/-- The three-operand operation's result at its result buffer: its function of the three operands' contents, each read
    at its own reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference left out of the rule's key, for use as a simplification rule. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The results of a straight line of host operations by one simplification pass, three-operand operations included. -/
macro "after_results_simp3" : tactic =>
  `(tactic| (simp (disch := decide) only [after_cons, after_nil,
      nullary_result', unary_result', binary_result', ternary_result', quaternary_result', reshape_result', nary4_result',
      nary3_result', nary_result', unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.RefRun.lean ====
/-
  The reference program's run: @main is a straight line of host operations (the outlined functions' bodies written out
  at their calls), and every weakly fair execution of it ends with each buffer at the operations' composed function of
  the arguments, the arguments unchanged. The three results are `RefTerm.outRel`, `RefTerm.outDec` and
  `RefTerm.cluster`.

  What one buffer holds after the line is the fold of the operations' results: an operation rewrites its own result
  buffer to its function of its operands' contents and leaves every other buffer. An operation of an outlined function
  reads and writes through a reference that carries the tensor type; the transport of contents along that type is the
  identity, so the fold at a result buffer is the composition of the reference functions, which is the stage functions'
  composition by their definitions.
-/
import proofs.«144889_j38044820308123_1_alg».proof.Proof.RefTerm
import proofs.«144889_j38044820308123_1_alg».proof.Proof.LibTypedRef
import proofs.«144889_j38044820308123_1_alg».proof.Proof.LibNary3
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- @main's 97 operations, in order: its own thirty-three and, at each call, the callee's written out over that call's
    buffers (a rectifier is three: the zero, its broadcast, the maximum; a table look-up is twenty-three, the select of
    its inner call among them). -/
abbrev ops : List (HloOp τ sig (Elt F)) :=
  [ StableHlo.binary main_arg0 main_arg1 main_v0 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg2 main_v1 (broadcastInDim S1x256 ![1] bcast_S256_S1x256_1 : (⟨S256, .f32⟩ : BufTy).Contents (Elt F) → (⟨S1x256, .f32⟩ : BufTy).Contents (Elt F)),
    StableHlo.unary main_v1 main_v2 (broadcastInDim S50000x256 ![0, 1] bcast_S1x256_S50000x256_0_1 : (⟨S1x256, .f32⟩ : BufTy).Contents (Elt F) → (⟨S50000x256, .f32⟩ : BufTy).Contents (Elt F)),
    StableHlo.binary main_v0 main_v2 main_v3 (addf : (⟨S50000x256, .f32⟩ : BufTy).Contents (Elt F) → (⟨S50000x256, .f32⟩ : BufTy).Contents (Elt F) → (⟨S50000x256, .f32⟩ : BufTy).Contents (Elt F)),
    StableHlo.TRef.nullary main_call0.cst (constant S_ .f32 0x00000000#32),
    StableHlo.TRef.unary main_call0.cst main_call0.v0 (broadcastInDim S50000x256 ![] bcast_S_S50000x256),
    StableHlo.TRef.binary (.of main_v3 : StableHlo.TRef sig ⟨S50000x256, .f32⟩) main_call0.v0 main_call0.v1 maximumf,
    StableHlo.binary main_v4 main_arg3 main_v5 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg4 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S50000x128 ![0, 1] bcast_S1x128_S50000x128_0_1 : (⟨S1x128, .f32⟩ : BufTy).Contents (Elt F) → (⟨S50000x128, .f32⟩ : BufTy).Contents (Elt F)),
    StableHlo.binary main_v5 main_v7 main_v8 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v8 : StableHlo.TRef sig ⟨S50000x128, .f32⟩) main_call1.v0 main_call1.v1 maximumf,
    StableHlo.binary main_v9 main_arg5 main_v10 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg6 main_v11 (broadcastInDim S1x64 ![1] bcast_S64_S1x64_1 : (⟨S64, .f32⟩ : BufTy).Contents (Elt F) → (⟨S1x64, .f32⟩ : BufTy).Contents (Elt F)),
    StableHlo.unary main_v11 main_v12 (broadcastInDim S50000x64 ![0, 1] bcast_S1x64_S50000x64_0_1 : (⟨S1x64, .f32⟩ : BufTy).Contents (Elt F) → (⟨S50000x64, .f32⟩ : BufTy).Contents (Elt F)),
    StableHlo.binary main_v10 main_v12 main_v13 (addf : (⟨S50000x64, .f32⟩ : BufTy).Contents (Elt F) → (⟨S50000x64, .f32⟩ : BufTy).Contents (Elt F) → (⟨S50000x64, .f32⟩ : BufTy).Contents (Elt F)),
    StableHlo.TRef.nullary main_call2.cst (constant S_ .f32 0x00000000#32),
    StableHlo.TRef.unary main_call2.cst main_call2.v0 (broadcastInDim S50000x64 ![] bcast_S_S50000x64),
    StableHlo.TRef.binary (.of main_v13 : StableHlo.TRef sig ⟨S50000x64, .f32⟩) main_call2.v0 main_call2.v1 maximumf,
    StableHlo.binary main_v14 main_arg7 main_v15 ((fun l r => Host.dotGeneral dot_S50000x64_S64x24_S50000x24_1_0_0_1_n_n none l r) : (⟨S50000x64, .f32⟩ : BufTy).Contents (Elt F) → (⟨S64x24, .f32⟩ : BufTy).Contents (Elt F) → (⟨S50000x24, .f32⟩ : BufTy).Contents (Elt F)),
    StableHlo.unary main_arg8 main_v16 (broadcastInDim S1x24 ![1] bcast_S24_S1x24_1 : (⟨S24, .f32⟩ : BufTy).Contents (Elt F) → (⟨S1x24, .f32⟩ : BufTy).Contents (Elt F)),
    StableHlo.unary main_v16 main_v17 (broadcastInDim S50000x24 ![0, 1] bcast_S1x24_S50000x24_0_1 : (⟨S1x24, .f32⟩ : BufTy).Contents (Elt F) → (⟨S50000x24, .f32⟩ : BufTy).Contents (Elt F)),
    StableHlo.binary main_v15 main_v17 main_v18 (addf : (⟨S50000x24, .f32⟩ : BufTy).Contents (Elt F) → (⟨S50000x24, .f32⟩ : BufTy).Contents (Elt F) → (⟨S50000x24, .f32⟩ : BufTy).Contents (Elt F)),
    StableHlo.reshape main_v18 main_v19 rfl shapeCasts_S50000x24_S400000x3,
    StableHlo.nullary main_v20 (iotaInDim S50000 32 0),
    StableHlo.unary main_v20 main_v21 (broadcastInDim S50000x8 ![0] bcast_S50000_S50000x8_0 : (⟨S50000, .i32⟩ : BufTy).Contents (Elt F) → (⟨S50000x8, .i32⟩ : BufTy).Contents (Elt F)),
    StableHlo.reshape main_v21 main_v22 rfl shapeCasts_S50000x8_S400000,
    StableHlo.TRef.nullary main_call3.c (constantI S_ 32 0#32),
    StableHlo.TRef.unary main_call3.c main_call3.v0 (broadcastInDim S400000 ![] bcast_S_S400000),
    StableHlo.TRef.binary (.of main_v22 : StableHlo.TRef sig ⟨S400000, .i32⟩) main_call3.v0 main_call3.v1 (cmpi .slt),
    StableHlo.TRef.nullary main_call3.c_0 (constantI S_ 32 50000#32),
    StableHlo.TRef.unary main_call3.c_0 main_call3.v2 (broadcastInDim S400000 ![] bcast_S_S400000),
    StableHlo.TRef.binary (.of main_v22 : StableHlo.TRef sig ⟨S400000, .i32⟩) main_call3.v2 main_call3.v3 addi,
    StableHlo.TRef.ternary main_call3.v1 main_call3.v3 (.of main_v22 : StableHlo.TRef sig ⟨S400000, .i32⟩) main_call3.call0.v0 select,
    StableHlo.TRef.unary main_call3.call0.v0 main_call3.v5 (broadcastInDim S400000x1 ![0] bcast_S400000_S400000x1_0),
    StableHlo.TRef.nullary main_call3.c_1 (constantI S1 32 49999#32),
    StableHlo.TRef.nullary main_call3.c_2 (constantI S_ 32 0#32),
    StableHlo.TRef.unary main_call3.c_2 main_call3.v6 (broadcastInDim S400000x1 ![] bcast_S_S400000x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S400000x1 ![0, 1] bcast_S1x1_S400000x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S400000x1_S400000_d1 h_S_),
    StableHlo.TRef.binary (.of main_v14 : StableHlo.TRef sig ⟨S50000x64, .f32⟩) main_call3.v5 main_call3.v13 (fun x i => Host.gather gather_S50000x64_S400000x1_S400000x64_1_0_n_n_0_1_164 x i),
    StableHlo.TRef.unary main_call3.v12 main_call3.v14 (broadcastInDim S400000x64 ![0] bcast_S400000_S400000x64_0),
    StableHlo.TRef.nullary main_call3.cst (constant S_ .f32 0x7FC00000#32),
    StableHlo.TRef.unary main_call3.cst main_call3.v15 (broadcastInDim S400000x64 ![] bcast_S_S400000x64),
    StableHlo.TRef.ternary main_call3.v14 main_call3.v13 main_call3.v15 main_call3.v16 select,
    StableHlo.TRef.nullary main_call4.c (constantI S_ 32 0#32),
    StableHlo.TRef.unary main_call4.c main_call4.v0 (broadcastInDim S400000 ![] bcast_S_S400000),
    StableHlo.TRef.binary (.of main_v22 : StableHlo.TRef sig ⟨S400000, .i32⟩) main_call4.v0 main_call4.v1 (cmpi .slt),
    StableHlo.TRef.nullary main_call4.c_0 (constantI S_ 32 50000#32),
    StableHlo.TRef.unary main_call4.c_0 main_call4.v2 (broadcastInDim S400000 ![] bcast_S_S400000),
    StableHlo.TRef.binary (.of main_v22 : StableHlo.TRef sig ⟨S400000, .i32⟩) main_call4.v2 main_call4.v3 addi,
    StableHlo.TRef.ternary main_call4.v1 main_call4.v3 (.of main_v22 : StableHlo.TRef sig ⟨S400000, .i32⟩) main_call4.call0.v0 select,
    StableHlo.TRef.unary main_call4.call0.v0 main_call4.v5 (broadcastInDim S400000x1 ![0] bcast_S400000_S400000x1_0),
    StableHlo.TRef.nullary main_call4.c_1 (constantI S1 32 49999#32),
    StableHlo.TRef.nullary main_call4.c_2 (constantI S_ 32 0#32),
    StableHlo.TRef.unary main_call4.c_2 main_call4.v6 (broadcastInDim S400000x1 ![] bcast_S_S400000x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S400000x1 ![0, 1] bcast_S1x1_S400000x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S400000x1_S400000_d1 h_S_),
    StableHlo.TRef.binary (.of main_arg0 : StableHlo.TRef sig ⟨S50000x256, .f32⟩) main_call4.v5 main_call4.v13 (fun x i => Host.gather gather_S50000x256_S400000x1_S400000x256_1_0_n_n_0_1_1256 x i),
    StableHlo.TRef.unary main_call4.v12 main_call4.v14 (broadcastInDim S400000x256 ![0] bcast_S400000_S400000x256_0),
    StableHlo.TRef.nullary main_call4.cst (constant S_ .f32 0x7FC00000#32),
    StableHlo.TRef.unary main_call4.cst main_call4.v15 (broadcastInDim S400000x256 ![] bcast_S_S400000x256),
    StableHlo.TRef.ternary main_call4.v14 main_call4.v13 main_call4.v15 main_call4.v16 select,
    StableHlo.nary ![main_v24, main_v23, main_v19] main_v25 (fun u => concatenate S400000x323 1 [⟨S400000x256, u 0⟩, ⟨S400000x64, u 1⟩, ⟨S400000x3, u 2⟩] concatenates_S400000x256_S400000x64_S400000x3_S400000x323_d1),
    StableHlo.binary main_v25 main_arg9 main_v26 ((fun l r => Host.dotGeneral dot_S400000x323_S323x256_S400000x256_1_0_0_1_n_n none l r) : (⟨S400000x323, .f32⟩ : BufTy).Contents (Elt F) → (⟨S323x256, .f32⟩ : BufTy).Contents (Elt F) → (⟨S400000x256, .f32⟩ : BufTy).Contents (Elt F)),
    StableHlo.unary main_arg10 main_v27 (broadcastInDim S1x256 ![1] bcast_S256_S1x256_1 : (⟨S256, .f32⟩ : BufTy).Contents (Elt F) → (⟨S1x256, .f32⟩ : BufTy).Contents (Elt F)),
    StableHlo.unary main_v27 main_v28 (broadcastInDim S400000x256 ![0, 1] bcast_S1x256_S400000x256_0_1 : (⟨S1x256, .f32⟩ : BufTy).Contents (Elt F) → (⟨S400000x256, .f32⟩ : BufTy).Contents (Elt F)),
    StableHlo.binary main_v26 main_v28 main_v29 (addf : (⟨S400000x256, .f32⟩ : BufTy).Contents (Elt F) → (⟨S400000x256, .f32⟩ : BufTy).Contents (Elt F) → (⟨S400000x256, .f32⟩ : BufTy).Contents (Elt F)),
    StableHlo.TRef.nullary main_call5.cst (constant S_ .f32 0x00000000#32),
    StableHlo.TRef.unary main_call5.cst main_call5.v0 (broadcastInDim S400000x256 ![] bcast_S_S400000x256),
    StableHlo.TRef.binary (.of main_v29 : StableHlo.TRef sig ⟨S400000x256, .f32⟩) main_call5.v0 main_call5.v1 maximumf,
    StableHlo.binary main_v30 main_arg11 main_v31 ((fun l r => Host.dotGeneral dot_S400000x256_S256x256_S400000x256_1_0_0_1_n_n none l r) : (⟨S400000x256, .f32⟩ : BufTy).Contents (Elt F) → (⟨S256x256, .f32⟩ : BufTy).Contents (Elt F) → (⟨S400000x256, .f32⟩ : BufTy).Contents (Elt F)),
    StableHlo.unary main_arg12 main_v32 (broadcastInDim S1x256 ![1] bcast_S256_S1x256_1 : (⟨S256, .f32⟩ : BufTy).Contents (Elt F) → (⟨S1x256, .f32⟩ : BufTy).Contents (Elt F)),
    StableHlo.unary main_v32 main_v33 (broadcastInDim S400000x256 ![0, 1] bcast_S1x256_S400000x256_0_1 : (⟨S1x256, .f32⟩ : BufTy).Contents (Elt F) → (⟨S400000x256, .f32⟩ : BufTy).Contents (Elt F)),
    StableHlo.binary main_v31 main_v33 main_v34 (addf : (⟨S400000x256, .f32⟩ : BufTy).Contents (Elt F) → (⟨S400000x256, .f32⟩ : BufTy).Contents (Elt F) → (⟨S400000x256, .f32⟩ : BufTy).Contents (Elt F)),
    StableHlo.TRef.nullary main_call6.cst (constant S_ .f32 0x00000000#32),
    StableHlo.TRef.unary main_call6.cst main_call6.v0 (broadcastInDim S400000x256 ![] bcast_S_S400000x256),
    StableHlo.TRef.binary (.of main_v34 : StableHlo.TRef sig ⟨S400000x256, .f32⟩) main_call6.v0 main_call6.v1 maximumf,
    StableHlo.binary main_v35 main_arg13 main_v36 ((fun l r => Host.dotGeneral dot_S400000x256_S256x256_S400000x256_1_0_0_1_n_n none l r) : (⟨S400000x256, .f32⟩ : BufTy).Contents (Elt F) → (⟨S256x256, .f32⟩ : BufTy).Contents (Elt F) → (⟨S400000x256, .f32⟩ : BufTy).Contents (Elt F)),
    StableHlo.unary main_arg14 main_v37 (broadcastInDim S1x256 ![1] bcast_S256_S1x256_1 : (⟨S256, .f32⟩ : BufTy).Contents (Elt F) → (⟨S1x256, .f32⟩ : BufTy).Contents (Elt F)),
    StableHlo.unary main_v37 main_v38 (broadcastInDim S400000x256 ![0, 1] bcast_S1x256_S400000x256_0_1 : (⟨S1x256, .f32⟩ : BufTy).Contents (Elt F) → (⟨S400000x256, .f32⟩ : BufTy).Contents (Elt F)),
    StableHlo.binary main_v36 main_v38 main_v39 (addf : (⟨S400000x256, .f32⟩ : BufTy).Contents (Elt F) → (⟨S400000x256, .f32⟩ : BufTy).Contents (Elt F) → (⟨S400000x256, .f32⟩ : BufTy).Contents (Elt F)),
    StableHlo.TRef.nullary main_call7.cst (constant S_ .f32 0x00000000#32),
    StableHlo.TRef.unary main_call7.cst main_call7.v0 (broadcastInDim S400000x256 ![] bcast_S_S400000x256),
    StableHlo.TRef.binary (.of main_v39 : StableHlo.TRef sig ⟨S400000x256, .f32⟩) main_call7.v0 main_call7.v1 maximumf ]

set_option maxRecDepth 4096 in
set_option maxHeartbeats 4000000 in
/-- @main is that straight line: the functions' definitions unfolded at their calls, both sides are one chain of
    steps once sequencing is reassociated. -/
theorem main_eq (c : Dev nD) : main (F := F) c = seq ops := by
  simp only [main, fn_relu.body, fn_relu_0.body, fn_relu_1.body, fn_where.body, fn_take.body, fn_take_2.body, fn_relu_3.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub .., nullary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

/-- Three pieces side by side depend only on the pieces: equal pieces, equal concatenations. -/
@[local congr] theorem concat3_congr {α : Type} (t : Shape) (a : Fin t.rank) {s1 s2 s3 : Shape}
    {x1 x1' : s1.Idx → α} {x2 x2' : s2.Idx → α} {x3 x3' : s3.Idx → α}
    (h : Shape.Concatenates [s1, s2, s3] t a) (e1 : x1 = x1') (e2 : x2 = x2') (e3 : x3 = x3') :
    concatenate t a [⟨s1, x1⟩, ⟨s2, x2⟩, ⟨s3, x3⟩] h = concatenate t a [⟨s1, x1'⟩, ⟨s2, x2'⟩, ⟨s3, x3'⟩] h := by
  subst e1 e2 e3; rfl

/-- The concatenation's result at its buffer: the three operands' contents, each read at its own reference, side by
    side. -/
theorem concat_result' (W : Valuation τ sig (Elt F)) (hxs hy) :
    (StableHlo.nary (τ := τ) ![main_v24, main_v23, main_v19] main_v25 (fun u => concatenate S400000x323 1 [⟨S400000x256, u 0⟩, ⟨S400000x64, u 1⟩, ⟨S400000x3, u 2⟩] concatenates_S400000x256_S400000x64_S400000x3_S400000x323_d1) hxs hy).result W (no_index (Proc.devRef .tc main_v25))
      = concatenate S400000x323 1 [⟨S400000x256, W (main_v24 : DevRef τ sig)⟩, ⟨S400000x64, W (main_v23 : DevRef τ sig)⟩, ⟨S400000x3, W (main_v19 : DevRef τ sig)⟩] concatenates_S400000x256_S400000x64_S400000x3_S400000x323_d1 :=
  nary_result ..

attribute [local irreducible] Host.reduce Host.gather in
set_option maxRecDepth 16384 in
set_option maxHeartbeats 4000000 in
/-- The first result: the fold at its buffer is the linear head over the three rectified node layers, re-laid out as
    rows of three. -/
theorem v19_eq (V : Valuation τ sig (Elt F)) :
    after ops V (main_v19 : DevRef τ sig) = RefTerm.outRel (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  simp (disch := decide) only [after_cons, after_nil,
      nullary_result', unary_result', binary_result', ternary_result', reshape_result', concat_result',
      nullary_result_ne', unary_result_ne', binary_result_ne', ternary_result_ne', reshape_result_ne', nary_result_ne']
  simp only [Cert.TypedRef.ofBuf_toBuf]
  simp only [TRef.toBuf, TRef.ofBuf, cast_eq]
  rfl

attribute [local irreducible] Host.reduce Host.gather in
set_option maxRecDepth 16384 in
set_option maxHeartbeats 4000000 in
/-- The second result: the fold at its buffer is the three rectified point layers over each point's 323 inputs (its
    node's input row and feature row, looked up by node number, and its three coordinates). -/
theorem v40_eq (V : Valuation τ sig (Elt F)) :
    after ops V (main_v40 : DevRef τ sig) = RefTerm.outDec (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  simp (disch := decide) only [after_cons, after_nil,
      nullary_result', unary_result', binary_result', ternary_result', reshape_result', concat_result',
      nullary_result_ne', unary_result_ne', binary_result_ne', ternary_result_ne', reshape_result_ne', nary_result_ne']
  simp only [Cert.TypedRef.ofBuf_toBuf]
  simp only [TRef.toBuf, TRef.ofBuf, cast_eq]
  rfl

attribute [local irreducible] Host.reduce Host.gather in
set_option maxRecDepth 16384 in
set_option maxHeartbeats 4000000 in
/-- The third result: the node number of each point. -/
theorem v22_eq (V : Valuation τ sig (Elt F)) :
    after ops V (main_v22 : DevRef τ sig) = RefTerm.cluster := by
  simp (disch := decide) only [after_cons, after_nil,
      nullary_result', unary_result', binary_result', ternary_result', reshape_result', concat_result',
      nullary_result_ne', unary_result_ne', binary_result_ne', ternary_result_ne', reshape_result_ne', nary_result_ne']
  rfl

set_option maxRecDepth 16384 in
set_option maxHeartbeats 4000000 in
/-- No operation writes argument 0: its buffer keeps its contents. -/
theorem arg0_eq (V : Valuation τ sig (Elt F)) :
    after ops V (main_arg0 : DevRef τ sig) = V (main_arg0 : DevRef τ sig) := by
  simp (disch := decide) only [after_cons, after_nil,
      nullary_result', unary_result', binary_result', ternary_result', reshape_result', concat_result',
      nullary_result_ne', unary_result_ne', binary_result_ne', ternary_result_ne', reshape_result_ne', nary_result_ne']

set_option maxRecDepth 16384 in
set_option maxHeartbeats 4000000 in
/-- No operation writes argument 1: its buffer keeps its contents. -/
theorem arg1_eq (V : Valuation τ sig (Elt F)) :
    after ops V (main_arg1 : DevRef τ sig) = V (main_arg1 : DevRef τ sig) := by
  simp (disch := decide) only [after_cons, after_nil,
      nullary_result', unary_result', binary_result', ternary_result', reshape_result', concat_result',
      nullary_result_ne', unary_result_ne', binary_result_ne', ternary_result_ne', reshape_result_ne', nary_result_ne']

set_option maxRecDepth 16384 in
set_option maxHeartbeats 4000000 in
/-- No operation writes argument 2: its buffer keeps its contents. -/
theorem arg2_eq (V : Valuation τ sig (Elt F)) :
    after ops V (main_arg2 : DevRef τ sig) = V (main_arg2 : DevRef τ sig) := by
  simp (disch := decide) only [after_cons, after_nil,
      nullary_result', unary_result', binary_result', ternary_result', reshape_result', concat_result',
      nullary_result_ne', unary_result_ne', binary_result_ne', ternary_result_ne', reshape_result_ne', nary_result_ne']

set_option maxRecDepth 16384 in
set_option maxHeartbeats 4000000 in
/-- No operation writes argument 3: its buffer keeps its contents. -/
theorem arg3_eq (V : Valuation τ sig (Elt F)) :
    after ops V (main_arg3 : DevRef τ sig) = V (main_arg3 : DevRef τ sig) := by
  simp (disch := decide) only [after_cons, after_nil,
      nullary_result', unary_result', binary_result', ternary_result', reshape_result', concat_result',
      nullary_result_ne', unary_result_ne', binary_result_ne', ternary_result_ne', reshape_result_ne', nary_result_ne']

set_option maxRecDepth 16384 in
set_option maxHeartbeats 4000000 in
/-- No operation writes argument 4: its buffer keeps its contents. -/
theorem arg4_eq (V : Valuation τ sig (Elt F)) :
    after ops V (main_arg4 : DevRef τ sig) = V (main_arg4 : DevRef τ sig) := by
  simp (disch := decide) only [after_cons, after_nil,
      nullary_result', unary_result', binary_result', ternary_result', reshape_result', concat_result',
      nullary_result_ne', unary_result_ne', binary_result_ne', ternary_result_ne', reshape_result_ne', nary_result_ne']

set_option maxRecDepth 16384 in
set_option maxHeartbeats 4000000 in
/-- No operation writes argument 5: its buffer keeps its contents. -/
theorem arg5_eq (V : Valuation τ sig (Elt F)) :
    after ops V (main_arg5 : DevRef τ sig) = V (main_arg5 : DevRef τ sig) := by
  simp (disch := decide) only [after_cons, after_nil,
      nullary_result', unary_result', binary_result', ternary_result', reshape_result', concat_result',
      nullary_result_ne', unary_result_ne', binary_result_ne', ternary_result_ne', reshape_result_ne', nary_result_ne']

set_option maxRecDepth 16384 in
set_option maxHeartbeats 4000000 in
/-- No operation writes argument 6: its buffer keeps its contents. -/
theorem arg6_eq (V : Valuation τ sig (Elt F)) :
    after ops V (main_arg6 : DevRef τ sig) = V (main_arg6 : DevRef τ sig) := by
  simp (disch := decide) only [after_cons, after_nil,
      nullary_result', unary_result', binary_result', ternary_result', reshape_result', concat_result',
      nullary_result_ne', unary_result_ne', binary_result_ne', ternary_result_ne', reshape_result_ne', nary_result_ne']

set_option maxRecDepth 16384 in
set_option maxHeartbeats 4000000 in
/-- No operation writes argument 7: its buffer keeps its contents. -/
theorem arg7_eq (V : Valuation τ sig (Elt F)) :
    after ops V (main_arg7 : DevRef τ sig) = V (main_arg7 : DevRef τ sig) := by
  simp (disch := decide) only [after_cons, after_nil,
      nullary_result', unary_result', binary_result', ternary_result', reshape_result', concat_result',
      nullary_result_ne', unary_result_ne', binary_result_ne', ternary_result_ne', reshape_result_ne', nary_result_ne']

set_option maxRecDepth 16384 in
set_option maxHeartbeats 4000000 in
/-- No operation writes argument 8: its buffer keeps its contents. -/
theorem arg8_eq (V : Valuation τ sig (Elt F)) :
    after ops V (main_arg8 : DevRef τ sig) = V (main_arg8 : DevRef τ sig) := by
  simp (disch := decide) only [after_cons, after_nil,
      nullary_result', unary_result', binary_result', ternary_result', reshape_result', concat_result',
      nullary_result_ne', unary_result_ne', binary_result_ne', ternary_result_ne', reshape_result_ne', nary_result_ne']

set_option maxRecDepth 16384 in
set_option maxHeartbeats 4000000 in
/-- No operation writes argument 9: its buffer keeps its contents. -/
theorem arg9_eq (V : Valuation τ sig (Elt F)) :
    after ops V (main_arg9 : DevRef τ sig) = V (main_arg9 : DevRef τ sig) := by
  simp (disch := decide) only [after_cons, after_nil,
      nullary_result', unary_result', binary_result', ternary_result', reshape_result', concat_result',
      nullary_result_ne', unary_result_ne', binary_result_ne', ternary_result_ne', reshape_result_ne', nary_result_ne']

set_option maxRecDepth 16384 in
set_option maxHeartbeats 4000000 in
/-- No operation writes argument 10: its buffer keeps its contents. -/
theorem arg10_eq (V : Valuation τ sig (Elt F)) :
    after ops V (main_arg10 : DevRef τ sig) = V (main_arg10 : DevRef τ sig) := by
  simp (disch := decide) only [after_cons, after_nil,
      nullary_result', unary_result', binary_result', ternary_result', reshape_result', concat_result',
      nullary_result_ne', unary_result_ne', binary_result_ne', ternary_result_ne', reshape_result_ne', nary_result_ne']

set_option maxRecDepth 16384 in
set_option maxHeartbeats 4000000 in
/-- No operation writes argument 11: its buffer keeps its contents. -/
theorem arg11_eq (V : Valuation τ sig (Elt F)) :
    after ops V (main_arg11 : DevRef τ sig) = V (main_arg11 : DevRef τ sig) := by
  simp (disch := decide) only [after_cons, after_nil,
      nullary_result', unary_result', binary_result', ternary_result', reshape_result', concat_result',
      nullary_result_ne', unary_result_ne', binary_result_ne', ternary_result_ne', reshape_result_ne', nary_result_ne']

set_option maxRecDepth 16384 in
set_option maxHeartbeats 4000000 in
/-- No operation writes argument 12: its buffer keeps its contents. -/
theorem arg12_eq (V : Valuation τ sig (Elt F)) :
    after ops V (main_arg12 : DevRef τ sig) = V (main_arg12 : DevRef τ sig) := by
  simp (disch := decide) only [after_cons, after_nil,
      nullary_result', unary_result', binary_result', ternary_result', reshape_result', concat_result',
      nullary_result_ne', unary_result_ne', binary_result_ne', ternary_result_ne', reshape_result_ne', nary_result_ne']

set_option maxRecDepth 16384 in
set_option maxHeartbeats 4000000 in
/-- No operation writes argument 13: its buffer keeps its contents. -/
theorem arg13_eq (V : Valuation τ sig (Elt F)) :
    after ops V (main_arg13 : DevRef τ sig) = V (main_arg13 : DevRef τ sig) := by
  simp (disch := decide) only [after_cons, after_nil,
      nullary_result', unary_result', binary_result', ternary_result', reshape_result', concat_result',
      nullary_result_ne', unary_result_ne', binary_result_ne', ternary_result_ne', reshape_result_ne', nary_result_ne']

set_option maxRecDepth 16384 in
set_option maxHeartbeats 4000000 in
/-- No operation writes argument 14: its buffer keeps its contents. -/
theorem arg14_eq (V : Valuation τ sig (Elt F)) :
    after ops V (main_arg14 : DevRef τ sig) = V (main_arg14 : DevRef τ sig) := by
  simp (disch := decide) only [after_cons, after_nil,
      nullary_result', unary_result', binary_result', ternary_result', reshape_result', concat_result',
      nullary_result_ne', unary_result_ne', binary_result_ne', ternary_result_ne', reshape_result_ne', nary_result_ne']

/-- On every device, from any memory with zero counters: every weakly fair execution of @main terminates with the
    three results at the composed stage functions of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = RefTerm.outRel (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v40) = RefTerm.outDec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v22) = RefTerm.cluster
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v19).trans (v19_eq (launchContents m c)),
      (h c main_v40).trans (v40_eq (launchContents m c)),
      (h c main_v22).trans (v22_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c)),
      (h c main_arg13).trans (arg13_eq (launchContents m c)),
      (h c main_arg14).trans (arg14_eq (launchContents m c))⟩)
    (run_seq scopedRefs_eq scopedSems_eq defs main (fun _ => ops) main_eq (fun _ => ops_sub) m ρ)

end Cert.ReferenceIdeal.RefRun

end
-- ==== Proof.LibGatherRows.lean ====
/-
  Rows of a table taken at a column of start indices (the table indexed by a one-axis array of row numbers, the
  start indices as an [N, 1] array): the result's entry (n, k) is the table's entry at row  idx[n, 0]  (that word read
  as a signed integer and clamped into the table's rows) and column k. Operand axis 0 is collapsed and indexed, operand
  axis 1 is an offset axis taken whole, and the index vector lies on axis 1 of the start indices.
  When the word reads as a row number of the table the clamp does nothing, and the entry is the table's at that row.
-/
import Idealize.ShloMosaic.PureOps
import Idealize.ShloMosaic.Lib.ValueIdx

noncomputable section

open Idealize.ShloMosaic Idealize.ShloMosaic.ValueIdx

namespace Cert.GatherRows

variable {α : Type}

/-- The dimension numbers of the row gather for a [T, C] table and an [N, 1] column of start indices: axis 0 collapsed
    and indexed, axis 1 an offset axis taken whole; the result is [N, C]. -/
abbrev rowsDims (T C N : ℕ)
    (wf : GatherDims.WF ⟨2, ![T, C]⟩ ⟨2, ![N, 1]⟩ ⟨2, ![N, C]⟩ [1] [0] [] [0] [] 1 ![1, C]) :
    GatherDims ⟨2, ![T, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The row gather read at (n, k), at dimension numbers given by their literals: the table at row  idx[n, 0]
    (signed, clamped into [0, T − 1]) and column k. -/
theorem gather_rows_lit {T C N w : ℕ} (hT : 0 < T)
    (wf : GatherDims.WF ⟨2, ![T, C]⟩ ⟨2, ![N, 1]⟩ ⟨2, ![N, C]⟩ [1] [0] [] [0] [] 1 ![1, C])
    (x : (⟨2, ![T, C]⟩ : Shape).Idx → α) (idx : IVec ⟨2, ![N, 1]⟩ w) (n : Fin N) (k : Fin C) :
    Host.gather (rowsDims T C N wf) x idx (ix2 n k)
      = x (ix2 ⟨min (idx (ix2 n 0)).toInt.toNat (T - 1), by omega⟩ k) := by
  unfold Host.gather
  congr 1
  funext a
  refine Fin.ext ?_
  match a with
  | ⟨0, _⟩ =>
    show (rowsDims T C N wf).start (ix2 n k) idx 0 + (rowsDims T C N wf).batchCoord (ix2 n k) 0
      + (rowsDims T C N wf).offCoord (ix2 n k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims T C N wf).startIndexMap from List.mem_singleton.mpr rfl)]
    have hsi : (rowsDims T C N wf).siIdx (ix2 n k) ⟨List.idxOf (0 : Fin 2) (rowsDims T C N wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  | ⟨1, _⟩ =>
    have h10 : (1 : Fin 2) ∉ ([0] : List (Fin 2)) := by decide
    show (rowsDims T C N wf).start (ix2 n k) idx 1 + (rowsDims T C N wf).batchCoord (ix2 n k) 1
      + (rowsDims T C N wf).offCoord (ix2 n k) 1 = k.val
    rw [GatherDims.batchCoord_eq_zero _ _ _ List.not_mem_nil]
    unfold GatherDims.start
    rw [dif_neg (show (1 : Fin 2) ∉ (rowsDims T C N wf).startIndexMap from h10)]
    unfold GatherDims.offCoord
    rw [dif_pos (show (1 : Fin 2) ∈ (rowsDims T C N wf).sKept from
      (GatherDims.mem_sKept _ _).mpr ⟨h10, List.not_mem_nil⟩)]
    simp only [Nat.zero_add, Nat.add_zero]
    rfl

/-- The row gather read at (n, k), for any record with these dimension numbers (each hypothesis is `rfl` for a record
    defined by the seven literals): the table at row  idx[n, 0]  (signed, clamped into [0, T − 1]) and column k. -/
theorem gather_rows_apply {T C N w : ℕ} (hT : 0 < T)
    (d : GatherDims (⟨2, ![T, C]⟩ : Shape) (⟨2, ![N, 1]⟩ : Shape) (⟨2, ![N, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![T, C]⟩ : Shape).Idx → α) (idx : IVec ⟨2, ![N, 1]⟩ w) (n : Fin N) (k : Fin C) :
    Host.gather d x idx (ix2 n k) = x (ix2 ⟨min (idx (ix2 n 0)).toInt.toNat (T - 1), by omega⟩ k) := by
  obtain ⟨od, cs, ob, sb, sm, iv, ss, wf⟩ := d
  dsimp only at h1 h2 h3 h4 h5 h6 h7
  subst h1 h2 h3 h4 h5 h6 h7
  exact gather_rows_lit hT wf x idx n k

/-- The same when the start index, read signed, is a row number of the table: the clamp does nothing. -/
theorem gather_rows_apply_of_lt {T C N w : ℕ}
    (d : GatherDims (⟨2, ![T, C]⟩ : Shape) (⟨2, ![N, 1]⟩ : Shape) (⟨2, ![N, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![T, C]⟩ : Shape).Idx → α) (idx : IVec ⟨2, ![N, 1]⟩ w) (n : Fin N) (k : Fin C)
    (h0 : 0 ≤ (idx (ix2 n 0)).toInt) (hlt : (idx (ix2 n 0)).toInt < (T : ℤ)) :
    Host.gather d x idx (ix2 n k) = x (ix2 ⟨(idx (ix2 n 0)).toInt.toNat, by omega⟩ k) := by
  have hT : 0 < T := by omega
  rw [gather_rows_apply hT d h1 h2 h3 h4 h5 h6 h7 x idx n k]
  congr 2
  exact Fin.ext (Nat.min_eq_left (by omega))

end Cert.GatherRows

end
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.RefTake.lean ====
/-
  The reference's node numbers and its two table look-ups.

  `cluster` lists, for each of the 400000 points, the number of its node: the row numbers 0 … 49999 are repeated along
  a second axis of extent 8 and the [50000, 8] array is laid out flat in row-major order, so entry j is the 32-bit word
  of j / 8 (`cluster_apply`). Read as a signed integer that word is j / 8, a number in [0, 50000): wrapping a negative
  row number leaves it alone, the range test holds at every point, and the look-up that would fill out-of-range rows
  fills none; the gather then reads row j / 8 of its table (`take64_cluster_apply`, `take256_cluster_apply`).
-/
import proofs.«144889_j38044820308123_1_alg».proof.Proof.RefTerm
import proofs.«144889_j38044820308123_1_alg».proof.Proof.LibGatherRows
import proofs.«144889_j38044820308123_1_alg».proof.Proof.LibIndexWrap
import Idealize.ShloMosaic.Lib.ValueIdx
import Idealize.ShloMosaic.Lib.Pipeline.Value
import Idealize.ShloMosaic.Lib.StableHlo.Predicate

noncomputable section

namespace Cert.ReferenceIdeal.RefTake

open Idealize.ShloMosaic Idealize.ShloMosaic.ValueIdx Cert.ReferenceIdeal Cert.ReferenceIdeal.RefTerm
open Cert.ReferenceIdeal.Facts₀

variable {F : FTy → Type} [FloatOps F]

/-- Point j belongs to node j / 8. -/
theorem cluster_apply (j : Fin 400000) : cluster (ix1 j) = BitVec.ofNat 32 (j.val / 8) := by
  have hq : j.val / 8 < 50000 := by omega
  have hr : j.val % 8 < 8 := Nat.mod_lt _ (by omega)
  unfold cluster
  -- flat position j is row j / 8, column j % 8 of the [50000, 8] array
  refine (shapeCast_apply _ shapeCasts_S50000x8_S400000 (ix1 j) (ix2 ⟨j.val / 8, hq⟩ ⟨j.val % 8, hr⟩) ?_).trans ?_
  · rw [Shape.rowMajor_val_two, Shape.rowMajor_val_one]
    show j.val / 8 * 8 + j.val % 8 = j.val
    omega
  -- the repeat along the second axis reads the row number at j / 8
  refine (broadcastInDim_apply _ bcast_S50000_S50000x8_0 _ _ (ix1 ⟨j.val / 8, hq⟩) ?_).trans ?_
  · intro a
    match a with
    | ⟨0, _⟩ => rfl
  rfl

/-- The node number of a point, read as a signed integer, is j / 8. -/
theorem cluster_toInt (j : Fin 400000) : (cluster (ix1 j)).toInt = ((j.val / 8 : ℕ) : ℤ) := by
  rw [cluster_apply]
  exact StableHlo.Predicate.toInt_ofNat_small _ (by omega)

/-! ### The look-up at row numbers that are all in range -/

section InRange

variable (idx : IVec S400000 32)

/-- The wrapped column of row numbers at (j, 0) is the wrap of row number j. -/
theorem takeIdx_apply (j : Fin 400000) :
    RefTerm.takeIdx idx (ix2 j 0) = IndexWrap.wrapWord 50000#32 (idx (ix1 j)) := by
  unfold RefTerm.takeIdx
  refine (broadcastInDim_apply _ bcast_S400000_S400000x1_0 _ _ (ix1 j) ?_).trans ?_
  · intro a
    match a with
    | ⟨0, _⟩ => rfl
  rfl

/-- A row number that is not negative is left alone by the wrap. -/
theorem wrapWord_of_nonneg (n s : BitVec 32) (h : 0 ≤ s.toInt) : IndexWrap.wrapWord n s = s := by
  have hz : (0#32 : BitVec 32).toInt = 0 := by decide
  unfold IndexWrap.wrapWord Scalar.select
  exact if_neg fun hs => by have := IntOp.cmpi_slt.1 hs; rw [hz] at this; omega

variable (h : ∀ j : Fin 400000, 0 ≤ (idx (ix1 j)).toInt ∧ (idx (ix1 j)).toInt < 50000)
include h

/-- The range test of the wrapped row number of point p is the bit 1. -/
theorem rangeTest_ones (p : Fin 400000) (q : Fin 1) :
    andi (cmpi .sge (RefTerm.takeIdx idx) (broadcastInDim S400000x1 ![] bcast_S_S400000x1 (constantI S_ 32 0#32)))
      (cmpi .sle (RefTerm.takeIdx idx) (broadcastInDim S400000x1 ![0, 1] bcast_S1x1_S400000x1_0_1
        (broadcastInDim S1x1 ![1] bcast_S1_S1x1_1 (constantI S1 32 49999#32)))) (ix2 p q) = 1#1 := by
  have h49 : (49999#32 : BitVec 32).toInt = ((50000 : ℕ) : ℤ) - 1 := by decide
  obtain ⟨h0, hlt⟩ := h p
  obtain rfl : q = 0 := Subsingleton.elim _ _
  show IntOp.andi (IntOp.cmpi .sge (RefTerm.takeIdx idx (ix2 p 0)) 0#32)
    (IntOp.cmpi .sle (RefTerm.takeIdx idx (ix2 p 0)) 49999#32) = 1#1
  rw [takeIdx_apply]
  exact IndexWrap.rangeTest_wrap 50000 (by omega) (by omega) 49999#32 h49 _ (by omega) (by omega)

/-- Every row number passes the range test, so the mask is 1 at every point. -/
theorem takeMask_ones (i : S400000.Idx) : takeMask (RefTerm.takeIdx idx) i = 1#1 := by
  unfold takeMask
  refine IndexWrap.reduce_andi_of_all _ _ reducesTo_S400000x1_S400000_d1 h_S_ (fun _ => rfl) (fun i => ?_) i
  rw [eq_ix2 i]
  exact rangeTest_ones idx h (i 0) (i 1)

/-- The start index of row j of the gather, read signed, is row number j. -/
theorem takeIdx_toInt (j : Fin 400000) : (RefTerm.takeIdx idx (ix2 j 0)).toInt = (idx (ix1 j)).toInt := by
  rw [takeIdx_apply, wrapWord_of_nonneg _ _ (h j).1]

/-- With every row number in range, row j of the feature look-up is the table's row at row number j. -/
theorem take64_apply_of_inRange (x : FVec F S50000x64 .f32) (j : Fin 400000) (k : Fin 64) :
    take64 x idx (ix2 j k) = x (ix2 ⟨(idx (ix1 j)).toInt.toNat, by have := h j; omega⟩ k) := by
  have ht := takeIdx_toInt idx h j
  unfold take64
  rw [IndexWrap.select_of_ones _ _ _ (fun i => by unfold broadcastInDim; exact takeMask_ones idx h _)]
  rw [Cert.GatherRows.gather_rows_apply_of_lt gather_S50000x64_S400000x1_S400000x64_1_0_n_n_0_1_164 rfl rfl rfl rfl rfl rfl rfl
    x (RefTerm.takeIdx idx) j k (by rw [ht]; exact (h j).1) (by rw [ht]; exact_mod_cast (h j).2)]
  exact congrArg x (congrArg (fun a => ix2 a k) (Fin.ext (congrArg Int.toNat ht)))

/-- With every row number in range, row j of the input look-up is the table's row at row number j. -/
theorem take256_apply_of_inRange (x : FVec F S50000x256 .f32) (j : Fin 400000) (k : Fin 256) :
    take256 x idx (ix2 j k) = x (ix2 ⟨(idx (ix1 j)).toInt.toNat, by have := h j; omega⟩ k) := by
  have ht := takeIdx_toInt idx h j
  unfold take256
  rw [IndexWrap.select_of_ones _ _ _ (fun i => by unfold broadcastInDim; exact takeMask_ones idx h _)]
  rw [Cert.GatherRows.gather_rows_apply_of_lt gather_S50000x256_S400000x1_S400000x256_1_0_n_n_0_1_1256 rfl rfl rfl rfl rfl rfl rfl
    x (RefTerm.takeIdx idx) j k (by rw [ht]; exact (h j).1) (by rw [ht]; exact_mod_cast (h j).2)]
  exact congrArg x (congrArg (fun a => ix2 a k) (Fin.ext (congrArg Int.toNat ht)))

end InRange

/-- Every node number, read signed, lies in [0, 50000). -/
theorem cluster_inRange (j : Fin 400000) : 0 ≤ (cluster (ix1 j)).toInt ∧ (cluster (ix1 j)).toInt < 50000 := by
  rw [cluster_toInt]; omega

/-- The feature look-up at the node numbers: row j is row j / 8 of the table. -/
theorem take64_cluster_apply (x : FVec F S50000x64 .f32) (j : Fin 400000) (k : Fin 64) :
    take64 x cluster (ix2 j k) = x (ix2 ⟨j.val / 8, by omega⟩ k) := by
  rw [take64_apply_of_inRange cluster cluster_inRange x j k]
  exact congrArg x (congrArg (fun a => ix2 a k) (Fin.ext ((congrArg Int.toNat (cluster_toInt j)).trans (Int.toNat_natCast _))))

/-- The input look-up at the node numbers: row j is row j / 8 of the table. -/
theorem take256_cluster_apply (x : FVec F S50000x256 .f32) (j : Fin 400000) (k : Fin 256) :
    take256 x cluster (ix2 j k) = x (ix2 ⟨j.val / 8, by omega⟩ k) := by
  rw [take256_apply_of_inRange cluster cluster_inRange x j k]
  exact congrArg x (congrArg (fun a => ix2 a k) (Fin.ext ((congrArg Int.toNat (cluster_toInt j)).trans (Int.toNat_natCast _))))

end Cert.ReferenceIdeal.RefTake

end
-- ==== Proof.RefVal.lean ====
/-
  The reference's two float results, entry by entry, are the specification's.

  Every layer of the reference acts on each row by itself (a general product with the weights, the bias row added to
  every row, the rectifier), so the 64 features of node n and its 24 coordinates are the row functions of node n's
  inputs. The point number j names node j / 8: `cluster` at j is the word of j / 8, a number in [0, 50000), so the table
  look-ups fill nothing and return row j / 8 of the inputs and of the features. Laying the [50000, 24] coordinates out
  as [400000, 3] puts entry 3 (j % 8) + c of node j / 8 at (j, c). Joined, row j of the point perceptron's input is the
  specification's 323 numbers of point j % 8 of node j / 8, and three more row-wise layers give its decoded features.
-/
import proofs.«144889_j38044820308123_1_alg».proof.Proof.RefTake
import proofs.«144889_j38044820308123_1_alg».proof.Proof.Spec

noncomputable section

namespace Cert.ReferenceIdeal.RefVal

open Idealize.ShloMosaic Idealize.ShloMosaic.ValueIdx Cert.ReferenceIdeal Cert.ReferenceIdeal.RefTerm Cert.ReferenceIdeal.RefTake Cert.Spec Cert.Dense

/-- One rectified layer as the host spells it, at (r, c): the rectified affine map of row r. -/
theorem host_layer_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (hb0 : (⟨0, ![]⟩ : Shape).BroadcastsInDim ⟨2, ![R, C]⟩ (![] : Fin 0 → Fin 2))
    (X : FVec Ideal ⟨2, ![R, K]⟩ .f32) (W : FVec Ideal ⟨2, ![K, C]⟩ .f32) (b : FVec Ideal ⟨1, ![C]⟩ .f32)
    (r : Fin R) (c : Fin C) :
    maximumf (addf (Host.dotGeneral d none X W)
        (broadcastInDim ⟨2, ![R, C]⟩ ![0, 1] hb2 (broadcastInDim ⟨2, ![1, C]⟩ ![1] hb1 b)))
      (broadcastInDim ⟨2, ![R, C]⟩ ![] hb0 (constant (F := Ideal) ⟨0, ![]⟩ .f32 0x00000000#32)) (ix2 r c)
      = relu (affine W b (fun k => X (ix2 r k))) c := by
  refine (host_relu_apply hb0 _ (ix2 r c)).trans ?_
  exact congrArg (fun x => max x 0) (host_affine_apply d h1 h2 h3 h4 h5 h6 hb1 hb2 X W b r c)

/-- Layer one, row n: the rectified affine map of node n's inputs. -/
theorem h0_row (a0 : FVec Ideal S50000x256 .f32) (a1 : FVec Ideal S256x256 .f32) (a2 : FVec Ideal S256 .f32)
    (n : Fin 50000) :
    (fun c : Fin 256 => h0 (F := Ideal) a0 a1 a2 (ix2 n c)) = relu (affine a1 a2 (rowOf a0 n)) := by
  funext c
  unfold h0
  exact host_layer_apply dot_S50000x256_S256x256_S50000x256_1_0_0_1_n_n rfl rfl rfl rfl rfl rfl _ _ _ a0 a1 a2 n c

/-- Layer two, row n: the rectified affine map of row n of its operand. -/
theorem h1_row (v : FVec Ideal S50000x256 .f32) (a3 : FVec Ideal S256x128 .f32) (a4 : FVec Ideal S128 .f32)
    (n : Fin 50000) :
    (fun c : Fin 128 => h1 (F := Ideal) v a3 a4 (ix2 n c)) = relu (affine a3 a4 (fun k => v (ix2 n k))) := by
  funext c
  unfold h1
  exact host_layer_apply dot_S50000x256_S256x128_S50000x128_1_0_0_1_n_n rfl rfl rfl rfl rfl rfl _ _ _ v a3 a4 n c

/-- Layer three, row n: the rectified affine map of row n of its operand. -/
theorem feats_row (v : FVec Ideal S50000x128 .f32) (a5 : FVec Ideal S128x64 .f32) (a6 : FVec Ideal S64 .f32)
    (n : Fin 50000) :
    (fun c : Fin 64 => RefTerm.feats (F := Ideal) v a5 a6 (ix2 n c)) = relu (affine a5 a6 (fun k => v (ix2 n k))) := by
  funext c
  unfold RefTerm.feats
  exact host_layer_apply dot_S50000x128_S128x64_S50000x64_1_0_0_1_n_n rfl rfl rfl rfl rfl rfl _ _ _ v a5 a6 n c

/-- The linear head, row n: the affine map of row n of its operand. -/
theorem rel24_row (v : FVec Ideal S50000x64 .f32) (a7 : FVec Ideal S64x24 .f32) (a8 : FVec Ideal S24 .f32)
    (n : Fin 50000) :
    (fun c : Fin 24 => rel24 (F := Ideal) v a7 a8 (ix2 n c)) = affine a7 a8 (fun k => v (ix2 n k)) := by
  funext c
  unfold rel24
  exact host_affine_apply dot_S50000x64_S64x24_S50000x24_1_0_0_1_n_n rfl rfl rfl rfl rfl rfl _ _ v a7 a8 n c

/-- The three layers composed: row n of the features is the specification's features of node n's inputs. -/
theorem featsOf_row (a0 : FVec Ideal S50000x256 .f32) (a1 : FVec Ideal S256x256 .f32) (a2 : FVec Ideal S256 .f32) (a3 : FVec Ideal S256x128 .f32) (a4 : FVec Ideal S128 .f32) (a5 : FVec Ideal S128x64 .f32) (a6 : FVec Ideal S64 .f32) (a7 : FVec Ideal S64x24 .f32) (a8 : FVec Ideal S24 .f32) (a9 : FVec Ideal S323x256 .f32) (a10 : FVec Ideal S256 .f32) (a11 : FVec Ideal S256x256 .f32) (a12 : FVec Ideal S256 .f32) (a13 : FVec Ideal S256x256 .f32) (a14 : FVec Ideal S256 .f32)
    (n : Fin 50000) :
    (fun c : Fin 64 => featsOf (F := Ideal) a0 a1 a2 a3 a4 a5 a6 (ix2 n c))
      = Spec.feats ⟨a1, a2, a3, a4, a5, a6, a7, a8, a9, a10, a11, a12, a13, a14⟩ (rowOf a0 n) := by
  unfold featsOf Spec.feats
  rw [feats_row, h1_row, h0_row]

/-- The [50000, 24] coordinates laid out as [400000, 3]: entry (j, c) has row-major position
    3 j + c = 24 (j / 8) + (3 (j % 8) + c), so it is entry 3 (j % 8) + c of row j / 8. -/
theorem relOut_apply (v : FVec Ideal S50000x24 .f32) (j : Fin 400000) (c : Fin 3) :
    relOut (F := Ideal) v (ix2 j c) = v (ix2 ⟨j.val / 8, by omega⟩ ⟨3 * (j.val % 8) + c.val, by omega⟩) := by
  unfold relOut
  refine shapeCast_apply _ _ _ _ ?_
  rw [Shape.rowMajor_val_two, Shape.rowMajor_val_two]
  show j.val / 8 * 24 + (3 * (j.val % 8) + c.val) = j.val * 3 + c.val
  omega

/-- The reference's first result is the specification's. -/
theorem outRel_eq (a0 : FVec Ideal S50000x256 .f32) (a1 : FVec Ideal S256x256 .f32) (a2 : FVec Ideal S256 .f32) (a3 : FVec Ideal S256x128 .f32) (a4 : FVec Ideal S128 .f32) (a5 : FVec Ideal S128x64 .f32) (a6 : FVec Ideal S64 .f32) (a7 : FVec Ideal S64x24 .f32) (a8 : FVec Ideal S24 .f32) (a9 : FVec Ideal S323x256 .f32) (a10 : FVec Ideal S256 .f32) (a11 : FVec Ideal S256x256 .f32) (a12 : FVec Ideal S256 .f32) (a13 : FVec Ideal S256x256 .f32) (a14 : FVec Ideal S256 .f32) :
    outRel (F := Ideal) a0 a1 a2 a3 a4 a5 a6 a7 a8
      = Grel ⟨a1, a2, a3, a4, a5, a6, a7, a8, a9, a10, a11, a12, a13, a14⟩ a0 := by
  funext i
  obtain ⟨j, c, rfl⟩ : ∃ j c, i = ix2 j c := ⟨i 0, i 1, eq_ix2 i⟩
  unfold outRel
  rw [relOut_apply]
  refine (congrFun (rel24_row _ a7 a8 ⟨j.val / 8, by omega⟩) _).trans ?_
  rw [featsOf_row a0 a1 a2 a3 a4 a5 a6 a7 a8 a9 a10 a11 a12 a13 a14]
  rfl

/-- Columns 0 … 255 of the joined rows are the first piece's. -/
theorem decIn_left (t256 : FVec Ideal S400000x256 .f32) (t64 : FVec Ideal S400000x64 .f32) (r : FVec Ideal S400000x3 .f32)
    (j : Fin 400000) (k : Fin 323) (hk : k.val < 256) :
    decIn (F := Ideal) t256 t64 r (ix2 j k) = t256 (ix2 j ⟨k.val, hk⟩) := by
  unfold decIn
  refine concatenate_apply_piece (t := S400000x323) (1 : Fin 2) [⟨S400000x256, t256⟩, ⟨S400000x64, t64⟩, ⟨S400000x3, r⟩] _ (ix2 j k) 0 (by simp) S400000x256 t256 rfl rfl 0 rfl
    (ix2 j ⟨k.val, hk⟩) ?_ ?_
  · intro b hb
    match b, hb with
    | ⟨0, _⟩, _ => rfl
    | ⟨1, _⟩, hb => exact absurd rfl hb
  · show 0 + k.val = k.val
    omega

/-- Columns 256 … 319 are the second piece's. -/
theorem decIn_mid (t256 : FVec Ideal S400000x256 .f32) (t64 : FVec Ideal S400000x64 .f32) (r : FVec Ideal S400000x3 .f32)
    (j : Fin 400000) (k : Fin 323) (hk1 : ¬ k.val < 256) (hk2 : k.val < 320) :
    decIn (F := Ideal) t256 t64 r (ix2 j k) = t64 (ix2 j ⟨k.val - 256, by omega⟩) := by
  unfold decIn
  refine concatenate_apply_piece (t := S400000x323) (1 : Fin 2) [⟨S400000x256, t256⟩, ⟨S400000x64, t64⟩, ⟨S400000x3, r⟩] _ (ix2 j k) 1 (by simp) S400000x64 t64 rfl rfl 256 rfl
    (ix2 j ⟨k.val - 256, by omega⟩) ?_ ?_
  · intro b hb
    match b, hb with
    | ⟨0, _⟩, _ => rfl
    | ⟨1, _⟩, hb => exact absurd rfl hb
  · show 256 + (k.val - 256) = k.val
    omega

/-- Columns 320 … 322 are the third piece's. -/
theorem decIn_right (t256 : FVec Ideal S400000x256 .f32) (t64 : FVec Ideal S400000x64 .f32) (r : FVec Ideal S400000x3 .f32)
    (j : Fin 400000) (k : Fin 323) (hk2 : ¬ k.val < 320) :
    decIn (F := Ideal) t256 t64 r (ix2 j k) = r (ix2 j ⟨k.val - 320, by omega⟩) := by
  unfold decIn
  refine concatenate_apply_piece (t := S400000x323) (1 : Fin 2) [⟨S400000x256, t256⟩, ⟨S400000x64, t64⟩, ⟨S400000x3, r⟩] _ (ix2 j k) 2 (by simp) S400000x3 r rfl rfl 320 rfl
    (ix2 j ⟨k.val - 320, by omega⟩) ?_ ?_
  · intro b hb
    match b, hb with
    | ⟨0, _⟩, _ => rfl
    | ⟨1, _⟩, hb => exact absurd rfl hb
  · show 320 + (k.val - 320) = k.val
    omega

/-- Layer one on the point rows, row j: the rectified affine map of row j of its operand. -/
theorem p0_row (v : FVec Ideal S400000x323 .f32) (a9 : FVec Ideal S323x256 .f32) (a10 : FVec Ideal S256 .f32)
    (j : Fin 400000) :
    (fun c : Fin 256 => p0 (F := Ideal) v a9 a10 (ix2 j c)) = relu (affine a9 a10 (fun k => v (ix2 j k))) := by
  funext c
  unfold p0
  exact host_layer_apply dot_S400000x323_S323x256_S400000x256_1_0_0_1_n_n rfl rfl rfl rfl rfl rfl _ _ _ v a9 a10 j c

/-- Layers two and three on the point rows, row j: the rectified affine map of row j of the operand. -/
theorem p12_row (v : FVec Ideal S400000x256 .f32) (w : FVec Ideal S256x256 .f32) (b : FVec Ideal S256 .f32)
    (j : Fin 400000) :
    (fun c : Fin 256 => p12 (F := Ideal) v w b (ix2 j c)) = relu (affine w b (fun k => v (ix2 j k))) := by
  funext c
  unfold p12
  exact host_layer_apply dot_S400000x256_S256x256_S400000x256_1_0_0_1_n_n rfl rfl rfl rfl rfl rfl _ _ _ v w b j c

/-- Row j of the point perceptron's input is the specification's 323 numbers of point j % 8 of node j / 8: the first
    256 columns are row j / 8 of the inputs, the next 64 row j / 8 of the features, the last three the point's
    coordinates. -/
theorem decIn_row (a0 : FVec Ideal S50000x256 .f32) (a1 : FVec Ideal S256x256 .f32) (a2 : FVec Ideal S256 .f32) (a3 : FVec Ideal S256x128 .f32) (a4 : FVec Ideal S128 .f32) (a5 : FVec Ideal S128x64 .f32) (a6 : FVec Ideal S64 .f32) (a7 : FVec Ideal S64x24 .f32) (a8 : FVec Ideal S24 .f32) (a9 : FVec Ideal S323x256 .f32) (a10 : FVec Ideal S256 .f32) (a11 : FVec Ideal S256x256 .f32) (a12 : FVec Ideal S256 .f32) (a13 : FVec Ideal S256x256 .f32) (a14 : FVec Ideal S256 .f32)
    (j : Fin 400000) :
    (fun k : Fin 323 => decIn (F := Ideal) (take256 a0 cluster) (take64 (featsOf a0 a1 a2 a3 a4 a5 a6) cluster)
        (outRel a0 a1 a2 a3 a4 a5 a6 a7 a8) (ix2 j k))
      = pointIn ⟨a1, a2, a3, a4, a5, a6, a7, a8, a9, a10, a11, a12, a13, a14⟩ (rowOf a0 ⟨j.val / 8, by omega⟩)
          ⟨j.val % 8, by omega⟩ := by
  funext k
  unfold pointIn
  by_cases hk1 : k.val < 256
  · rw [dif_pos hk1, decIn_left _ _ _ j k hk1, take256_cluster_apply]
    rfl
  · rw [dif_neg hk1]
    by_cases hk2 : k.val < 320
    · rw [dif_pos hk2, decIn_mid _ _ _ j k hk1 hk2, take64_cluster_apply]
      exact congrFun (featsOf_row a0 a1 a2 a3 a4 a5 a6 a7 a8 a9 a10 a11 a12 a13 a14 ⟨j.val / 8, by omega⟩) _
    · rw [dif_neg hk2, decIn_right _ _ _ j k hk2, outRel_eq a0 a1 a2 a3 a4 a5 a6 a7 a8 a9 a10 a11 a12 a13 a14]
      rfl

/-- The reference's second result is the specification's. -/
theorem outDec_eq (a0 : FVec Ideal S50000x256 .f32) (a1 : FVec Ideal S256x256 .f32) (a2 : FVec Ideal S256 .f32) (a3 : FVec Ideal S256x128 .f32) (a4 : FVec Ideal S128 .f32) (a5 : FVec Ideal S128x64 .f32) (a6 : FVec Ideal S64 .f32) (a7 : FVec Ideal S64x24 .f32) (a8 : FVec Ideal S24 .f32) (a9 : FVec Ideal S323x256 .f32) (a10 : FVec Ideal S256 .f32) (a11 : FVec Ideal S256x256 .f32) (a12 : FVec Ideal S256 .f32) (a13 : FVec Ideal S256x256 .f32) (a14 : FVec Ideal S256 .f32) :
    outDec (F := Ideal) a0 a1 a2 a3 a4 a5 a6 a7 a8 a9 a10 a11 a12 a13 a14
      = Gdec ⟨a1, a2, a3, a4, a5, a6, a7, a8, a9, a10, a11, a12, a13, a14⟩ a0 := by
  funext i
  obtain ⟨j, c, rfl⟩ : ∃ j c, i = ix2 j c := ⟨i 0, i 1, eq_ix2 i⟩
  unfold outDec
  refine (congrFun (p12_row _ a13 a14 j) c).trans ?_
  rw [p12_row _ a11 a12 j, p0_row _ a9 a10 j, decIn_row a0 a1 a2 a3 a4 a5 a6 a7 a8 a9 a10 a11 a12 a13 a14 j]
  rfl

end Cert.ReferenceIdeal.RefVal

end
-- ==== Proof.lean ====
/-
  The kernel and its reference compute one function of their fifteen arrays over the extended reals.

  Both programs run, for each of 50000 nodes, a three-layer perceptron on the node's 256 inputs, a linear head that
  gives eight points of three coordinates, and for each of the node's eight points a second three-layer perceptron on
  "the node's inputs, its 64 features, the point's coordinates". Every layer is an affine map of a row followed by the
  rectifier, so it acts on each row by itself; the kernel applies the layers to tiles of 400 nodes and repeats a node's
  row for its eight points inside the tile, the reference applies them to whole arrays and repeats rows by a table
  look-up at the node numbers j / 8. Read one row at a time both are the specification's row functions
  (`Spec.relRow`, `Spec.decRow`) of node j / 8 and point j % 8: no law of arithmetic beyond re-indexing a finite sum
  is used, and the precondition is never opened. The third result, the node number of each point, is built by both
  programs from the same constants by the same three operations.

  The two frames of the kernel's programs are the generated frame certificates; the reference's frame is its run with
  the results dropped; the idealized kernel is the printed kernel read at the extended reals (no rewrite was applied),
  so there is nothing to preserve.
-/
import proofs.«144889_j38044820308123_1_alg».proof.Defs
import proofs.«144889_j38044820308123_1_alg».proof.Proof.Gen.Kernel
import proofs.«144889_j38044820308123_1_alg».proof.Proof.Gen.Kernel.Frame
import proofs.«144889_j38044820308123_1_alg».proof.Proof.Gen.KernelIdeal
import proofs.«144889_j38044820308123_1_alg».proof.Proof.Gen.KernelIdeal.Frame
import proofs.«144889_j38044820308123_1_alg».proof.Proof.Gen.ReferenceIdeal
import proofs.«144889_j38044820308123_1_alg».proof.Proof.Gen.Pre_finite_inputs
import proofs.«144889_j38044820308123_1_alg».proof.Proof.KRun
import proofs.«144889_j38044820308123_1_alg».proof.Proof.RefRun
import proofs.«144889_j38044820308123_1_alg».proof.Proof.RefVal

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the three results dropped. -/
theorem frame_ri : Cert.frame_ReferenceIdeal := fun m ρ _ =>
  (θ_run Cert.ReferenceIdeal.defs _ _).mono (fun _ h c => (h c).2.2.2)
    (Cert.ReferenceIdeal.RefRun.run (F := Ideal) m ρ)

theorem preserves : Cert.preserves_Kernel_KernelIdeal := trivial

/-- From memories agreeing on the arguments both programs end with the specification's coordinates and decoded
    features of those arguments, and with the same node numbers. -/
theorem algebraic : Cert.algebraic_KernelIdeal_ReferenceIdeal := by
  intro m ρ m' ρ' _ hagree
  refine ⟨fun c => Cert.Spec.Grel (Cert.KernelIdeal.KRun.W m c) (Cert.KernelIdeal.KRun.X m c),
    fun c => Cert.Spec.Gdec (Cert.KernelIdeal.KRun.W m c) (Cert.KernelIdeal.KRun.X m c),
    fun _ => Cert.KernelIdeal.KRun.nodeOf, Cert.KernelIdeal.KRun.run m ρ, ?_⟩
  refine (θ_run Cert.ReferenceIdeal.defs _ _).mono (fun _ h c => ?_)
    (Cert.ReferenceIdeal.RefRun.run (F := Ideal) m' ρ')
  obtain ⟨g0, g1, g2, g3, g4, g5, g6, g7, g8, g9, g10, g11, g12, g13, g14⟩ := hagree c
  obtain ⟨r0, r1, r2, rargs⟩ := h c
  refine ⟨r0.trans ?_, r1.trans ?_, r2.trans ?_, rargs⟩
  · rw [g0, g1, g2, g3, g4, g5, g6, g7, g8]
    exact Cert.ReferenceIdeal.RefVal.outRel_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
  · rw [g0, g1, g2, g3, g4, g5, g6, g7, g8, g9, g10, g11, g12, g13, g14]
    exact Cert.ReferenceIdeal.RefVal.outDec_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
  · rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
